-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x256x256 : Shape := ⟨3, ![2, 256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S200000x256 .f32) (main_arg1 : FVec F S2x256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S2x256x256 .f32 := Host.absf main_arg1
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  main_v8
-- ==== Kernel.lean ====
abbrev S200000x256 : Shape := ⟨2, ![200000, 256]⟩
abbrev S2x256x256 : Shape := ⟨3, ![2, 256, 256]⟩
abbrev S1x256 : Shape := ⟨2, ![1, 256]⟩
abbrev S8000x256 : Shape := ⟨2, ![8000, 256]⟩
abbrev S256 : Shape := ⟨1, ![256]⟩
abbrev S_ : Shape := ⟨0, ![]⟩
abbrev S1x256x256 : Shape := ⟨3, ![1, 256, 256]⟩
abbrev S256x256 : Shape := ⟨2, ![256, 256]⟩
abbrev S2x256 : Shape := ⟨2, ![2, 256]⟩
abbrev S2000x256 : Shape := ⟨2, ![2000, 256]⟩
abbrev S2000 : Shape := ⟨1, ![2000]⟩
abbrev S2000x1 : Shape := ⟨2, ![2000, 1]⟩
abbrev S1x512 : Shape := ⟨2, ![1, 512]⟩

abbrev nBuf : Space → Nat
  | .hbm => 37
  | .vmem => 19
  | .smem => 0
  | _ => 0

abbrev bufTy : (tb : Table) → Fin (tcTables nBuf tb) → BufTy
  | .hbm, ⟨0, _⟩ => ⟨S200000x256, .f32⟩
  | .hbm, ⟨1, _⟩ => ⟨S2x256x256, .f32⟩
  | .hbm, ⟨2, _⟩ => ⟨S1x256, .f32⟩
  | .hbm, ⟨3, _⟩ => ⟨S_, .f32⟩
  | .hbm, ⟨4, _⟩ => ⟨S1x256, .f32⟩
  | .hbm, ⟨5, _⟩ => ⟨S1x256, .f32⟩
  | .hbm, ⟨6, _⟩ => ⟨S1x256x256, .f32⟩
  | .hbm, ⟨7, _⟩ => ⟨S256x256, .f32⟩
  | .hbm, ⟨8, _⟩ => ⟨S1x256, .f32⟩
  | .hbm, ⟨9, _⟩ => ⟨S1x256, .f32⟩
  | .hbm, ⟨10, _⟩ => ⟨S1x256x256, .f32⟩
  | .hbm, ⟨11, _⟩ => ⟨S256x256, .f32⟩
  | .hbm, ⟨12, _⟩ => ⟨S1x256, .f32⟩
  | .hbm, ⟨13, _⟩ => ⟨S1x256, .f32⟩
  | .hbm, ⟨14, _⟩ => ⟨S2x256, .f32⟩
  | .hbm, ⟨15, _⟩ => ⟨S200000x256, .f32⟩
  | .hbm, ⟨16, _⟩ => ⟨S200000x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256x256, .f32⟩
  | .hbm, ⟨26, _⟩ => ⟨S256x256, .f32⟩
  | .hbm, ⟨27, _⟩ => ⟨S1x256, .f32⟩
  | .hbm, ⟨28, _⟩ => ⟨S1x256, .f32⟩
  | .hbm, ⟨29, _⟩ => ⟨S1x256x256, .f32⟩
  | .hbm, ⟨30, _⟩ => ⟨S256x256, .f32⟩
  | .hbm, ⟨31, _⟩ => ⟨S1x256, .f32⟩
  | .hbm, ⟨32, _⟩ => ⟨S1x256, .f32⟩
  | .hbm, ⟨33, _⟩ => ⟨S2x256, .f32⟩
  | .hbm, ⟨34, _⟩ => ⟨S1x256, .f32⟩
  | .hbm, ⟨35, _⟩ => ⟨S1x256, .f32⟩
  | .hbm, ⟨36, _⟩ => ⟨S1x512, .f32⟩
  | .local _ .vmem, ⟨0, _⟩ => ⟨S8000x256, .f32⟩
  | .local _ .vmem, ⟨1, _⟩ => ⟨S8000x256, .f32⟩
  | .local _ .vmem, ⟨2, _⟩ => ⟨S1x256, .f32⟩
  | .local _ .vmem, ⟨3, _⟩ => ⟨S2000x256, .f32⟩
  | .local _ .vmem, ⟨4, _⟩ => ⟨S2000x256, .f32⟩
  | .local _ .vmem, ⟨5, _⟩ => ⟨S2x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2x256, .f32⟩
  | .local _ .vmem, ⟨17, _⟩ => ⟨S1x256, .f32⟩
  | .local _ .vmem, ⟨18, _⟩ => ⟨S1x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8000x256_S8000x256_0_0 : ∀ a, (![0, 0] : Fin 2 → Nat) a + S8000x256.size a ≤ S8000x256.size a
  h_S8000x256 : 0 < S8000x256.numel
  reduces_S8000x256_S256 : S8000x256.Reduces [0] S256
  shapeCasts_S256_S1x256 : S256.ShapeCasts S1x256
  bcast_S_S1x256 : S_.BroadcastsInDim S1x256 (![] : Fin 0 → Fin S1x256.rank)
  slices_S2x256x256_S1x256x256_0_0_0 : S2x256x256.Slices ![0, 0, 0] S1x256x256
  shapeCasts_S1x256x256_S256x256 : S1x256x256.ShapeCasts S256x256
  slices_S2x256x256_S1x256x256_1_0_0 : S2x256x256.Slices ![1, 0, 0] S1x256x256
  concatenates_S1x256_S1x256_S2x256_d0 : Shape.Concatenates [S1x256, S1x256] S2x256 0
  inb_S2000x256_S2000x256_0_0 : ∀ a, (![0, 0] : Fin 2 → Nat) a + S2000x256.size a ≤ S2000x256.size a
  h_S2000x256 : 0 < S2000x256.numel
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  reduces_S2000x256_S256 : S2000x256.Reduces [0] S256
  slices_S2x256_o1_0_S1x256 : S2x256.Slices ![1, 0] S1x256
  shapeCasts_S2000x256_S2000x256 : S2000x256.ShapeCasts S2000x256
  concatenates_S1x256_S1x256_S1x512_d1 : Shape.Concatenates [S1x256, S1x256] S1x512 1
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S200000x256.size a
  hwx0_0 : ∀ i : grid0.Coords, EltTy.bits .f32 = 32 ∨ (Rect.block (s := S200000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256.size a ≤ S2x256.size a
  hwx1_1 : ∀ i : grid1.Coords, EltTy.bits .f32 = 32 ∨ (Rect.block (s := S2x256) S2x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S200000x256.size a
  hwx1_2 : ∀ i : grid1.Coords, EltTy.bits .f32 = 32 ∨ (Rect.block (s := S200000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S200000x256.size a
  hwx1_3 : ∀ i : grid1.Coords, EltTy.bits .f32 = 32 ∨ (Rect.block (s := S200000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x256.size a ≤ S2x256.size a
  hwx2_2 : ∀ i : grid2.Coords, EltTy.bits .f32 = 32 ∨ (Rect.block (s := S2x256) S2x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_2) S1x256.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_3) S1x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S2x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26_0) S1x256.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26_1) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x256 : Shape := ⟨2, ![200000, 256]⟩
abbrev S2x256x256 : Shape := ⟨3, ![2, 256, 256]⟩
abbrev S1x256x256 : Shape := ⟨3, ![1, 256, 256]⟩
abbrev S256x256 : Shape := ⟨2, ![256, 256]⟩
abbrev S_ : Shape := ⟨0, ![]⟩
abbrev S256 : Shape := ⟨1, ![256]⟩
abbrev S1x256 : Shape := ⟨2, ![1, 256]⟩
abbrev S256x1 : Shape := ⟨2, ![256, 1]⟩
abbrev S200000x1 : Shape := ⟨2, ![200000, 1]⟩
abbrev S200000 : Shape := ⟨1, ![200000]⟩
abbrev S1x200000 : Shape := ⟨2, ![1, 200000]⟩
abbrev S1x512 : Shape := ⟨2, ![1, 512]⟩

abbrev nBuf : Space → Nat
  | .hbm => 127
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S2x256x256, .f32⟩
  | .hbm, ⟨2, _⟩ => ⟨S1x256x256, .f32⟩
  | .hbm, ⟨3, _⟩ => ⟨S256x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S256x1, .f32⟩
  | .hbm, ⟨13, _⟩ => ⟨S200000x1, .f32⟩
  | .hbm, ⟨14, _⟩ => ⟨S200000x1, .f32⟩
  | .hbm, ⟨15, _⟩ => ⟨S_, .f32⟩
  | .hbm, ⟨16, _⟩ => ⟨S200000, .f32⟩
  | .hbm, ⟨17, _⟩ => ⟨S200000x1, .f32⟩
  | .hbm, ⟨18, _⟩ => ⟨S_, .f32⟩
  | .hbm, ⟨19, _⟩ => ⟨S200000x1, .f32⟩
  | .hbm, ⟨20, _⟩ => ⟨S200000x1, .f32⟩
  | .hbm, ⟨21, _⟩ => ⟨S200000x1, .f32⟩
  | .hbm, ⟨22, _⟩ => ⟨S200000x1, .f32⟩
  | .hbm, ⟨23, _⟩ => ⟨S200000x1, .f32⟩
  | .hbm, ⟨24, _⟩ => ⟨S_, .f32⟩
  | .hbm, ⟨25, _⟩ => ⟨S200000x1, .f32⟩
  | .hbm, ⟨26, _⟩ => ⟨S200000x1, .f32⟩
  | .hbm, ⟨27, _⟩ => ⟨S_, .f32⟩
  | .hbm, ⟨28, _⟩ => ⟨S200000x1, .f32⟩
  | .hbm, ⟨29, _⟩ => ⟨S200000x1, .f32⟩
  | .hbm, ⟨30, _⟩ => ⟨S1x200000, .f32⟩
  | .hbm, ⟨31, _⟩ => ⟨S1x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S256x1, .f32⟩
  | .hbm, ⟨43, _⟩ => ⟨S200000x1, .f32⟩
  | .hbm, ⟨44, _⟩ => ⟨S200000x1, .f32⟩
  | .hbm, ⟨45, _⟩ => ⟨S_, .f32⟩
  | .hbm, ⟨46, _⟩ => ⟨S200000, .f32⟩
  | .hbm, ⟨47, _⟩ => ⟨S200000x1, .f32⟩
  | .hbm, ⟨48, _⟩ => ⟨S_, .f32⟩
  | .hbm, ⟨49, _⟩ => ⟨S200000x1, .f32⟩
  | .hbm, ⟨50, _⟩ => ⟨S200000x1, .f32⟩
  | .hbm, ⟨51, _⟩ => ⟨S200000x1, .f32⟩
  | .hbm, ⟨52, _⟩ => ⟨S200000x1, .f32⟩
  | .hbm, ⟨53, _⟩ => ⟨S200000x1, .f32⟩
  | .hbm, ⟨54, _⟩ => ⟨S_, .f32⟩
  | .hbm, ⟨55, _⟩ => ⟨S200000x1, .f32⟩
  | .hbm, ⟨56, _⟩ => ⟨S200000x1, .f32⟩
  | .hbm, ⟨57, _⟩ => ⟨S_, .f32⟩
  | .hbm, ⟨58, _⟩ => ⟨S200000x1, .f32⟩
  | .hbm, ⟨59, _⟩ => ⟨S200000x1, .f32⟩
  | .hbm, ⟨60, _⟩ => ⟨S1x200000, .f32⟩
  | .hbm, ⟨61, _⟩ => ⟨S1x256, .f32⟩
  | .hbm, ⟨62, _⟩ => ⟨S200000x256, .f32⟩
  | .hbm, ⟨63, _⟩ => ⟨S200000x256, .f32⟩
  | .hbm, ⟨64, _⟩ => ⟨S1x256x256, .f32⟩
  | .hbm, ⟨65, _⟩ => ⟨S256x256, .f32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S256x1, .f32⟩
  | .hbm, ⟨75, _⟩ => ⟨S200000x1, .f32⟩
  | .hbm, ⟨76, _⟩ => ⟨S200000x1, .f32⟩
  | .hbm, ⟨77, _⟩ => ⟨S_, .f32⟩
  | .hbm, ⟨78, _⟩ => ⟨S200000, .f32⟩
  | .hbm, ⟨79, _⟩ => ⟨S200000x1, .f32⟩
  | .hbm, ⟨80, _⟩ => ⟨S_, .f32⟩
  | .hbm, ⟨81, _⟩ => ⟨S200000x1, .f32⟩
  | .hbm, ⟨82, _⟩ => ⟨S200000x1, .f32⟩
  | .hbm, ⟨83, _⟩ => ⟨S200000x1, .f32⟩
  | .hbm, ⟨84, _⟩ => ⟨S200000x1, .f32⟩
  | .hbm, ⟨85, _⟩ => ⟨S200000x1, .f32⟩
  | .hbm, ⟨86, _⟩ => ⟨S_, .f32⟩
  | .hbm, ⟨87, _⟩ => ⟨S200000x1, .f32⟩
  | .hbm, ⟨88, _⟩ => ⟨S200000x1, .f32⟩
  | .hbm, ⟨89, _⟩ => ⟨S_, .f32⟩
  | .hbm, ⟨90, _⟩ => ⟨S200000x1, .f32⟩
  | .hbm, ⟨91, _⟩ => ⟨S200000x1, .f32⟩
  | .hbm, ⟨92, _⟩ => ⟨S1x200000, .f32⟩
  | .hbm, ⟨93, _⟩ => ⟨S1x256, .f32⟩
  | .hbm, ⟨94, _⟩ => ⟨S200000x256, .f32⟩
  | .hbm, ⟨95, _⟩ => ⟨S200000x256, .f32⟩
  | .hbm, ⟨96, _⟩ => ⟨S_, .f32⟩
  | .hbm, ⟨97, _⟩ => ⟨S256, .f32⟩
  | .hbm, ⟨98, _⟩ => ⟨S1x256, .f32⟩
  | .hbm, ⟨99, _⟩ => ⟨S_, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S256x1, .f32⟩
  | .hbm, ⟨105, _⟩ => ⟨S200000x1, .f32⟩
  | .hbm, ⟨106, _⟩ => ⟨S200000x1, .f32⟩
  | .hbm, ⟨107, _⟩ => ⟨S_, .f32⟩
  | .hbm, ⟨108, _⟩ => ⟨S200000, .f32⟩
  | .hbm, ⟨109, _⟩ => ⟨S200000x1, .f32⟩
  | .hbm, ⟨110, _⟩ => ⟨S_, .f32⟩
  | .hbm, ⟨111, _⟩ => ⟨S200000x1, .f32⟩
  | .hbm, ⟨112, _⟩ => ⟨S200000x1, .f32⟩
  | .hbm, ⟨113, _⟩ => ⟨S200000x1, .f32⟩
  | .hbm, ⟨114, _⟩ => ⟨S200000x1, .f32⟩
  | .hbm, ⟨115, _⟩ => ⟨S200000x1, .f32⟩
  | .hbm, ⟨116, _⟩ => ⟨S_, .f32⟩
  | .hbm, ⟨117, _⟩ => ⟨S200000x1, .f32⟩
  | .hbm, ⟨118, _⟩ => ⟨S200000x1, .f32⟩
  | .hbm, ⟨119, _⟩ => ⟨S_, .f32⟩
  | .hbm, ⟨120, _⟩ => ⟨S200000x1, .f32⟩
  | .hbm, ⟨121, _⟩ => ⟨S200000x1, .f32⟩
  | .hbm, ⟨122, _⟩ => ⟨S1x200000, .f32⟩
  | .hbm, ⟨123, _⟩ => ⟨S1x256, .f32⟩
  | .hbm, ⟨124, _⟩ => ⟨S200000x256, .f32⟩
  | .hbm, ⟨125, _⟩ => ⟨S200000x256, .f32⟩
  | .hbm, ⟨126, _⟩ => ⟨S1x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_v52 : Ref sig .tc := ⟨.hbm, 67, rfl⟩
abbrev main_v53 : Ref sig .tc := ⟨.hbm, 68, rfl⟩
abbrev main_cst_12 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_15 : Ref sig .tc := ⟨.hbm, 86, rfl⟩
abbrev main_v68 : Ref sig .tc := ⟨.hbm, 87, rfl⟩
abbrev main_v69 : Ref sig .tc := ⟨.hbm, 88, rfl⟩
abbrev main_cst_16 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_17 : Ref sig .tc := ⟨.hbm, 96, rfl⟩
abbrev main_v76 : Ref sig .tc := ⟨.hbm, 97, rfl⟩
abbrev main_v77 : Ref sig .tc := ⟨.hbm, 98, rfl⟩
abbrev main_cst_18 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_19 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_21 : Ref sig .tc := ⟨.hbm, 116, rfl⟩
abbrev main_v92 : Ref sig .tc := ⟨.hbm, 117, rfl⟩
abbrev main_v93 : Ref sig .tc := ⟨.hbm, 118, rfl⟩
abbrev main_cst_22 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  slices_S2x256x256_S1x256x256_0_0_0 : S2x256x256.Slices ![0, 0, 0] S1x256x256
  shapeCasts_S1x256x256_S256x256 : S1x256x256.ShapeCasts S256x256
  reducesTo_S200000x256_S256_d0 : S200000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  transposes_S1x256_S256x1_1_0 : S1x256.Transposes [1, 0] S256x1
  reducesTo_S200000x1_S200000_d1 : S200000x1.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  transposes_S200000x1_S1x200000_1_0 : S200000x1.Transposes [1, 0] S1x200000
  bcast_S200000x1_S200000x256_0_1 : S200000x1.BroadcastsInDim S200000x256 (![0, 1] : Fin 2 → Fin S200000x256.rank)
  slices_S2x256x256_S1x256x256_1_0_0 : S2x256x256.Slices ![1, 0, 0] S1x256x256
  concatenates_S1x256_S1x256_S1x512_d1 : Shape.Concatenates [S1x256, S1x256] S1x512 1
  dot_S1x256_S256x256_S1x256_1_0_0_1_n_n_wf : DotDims.WF S1x256 S256x256 S1x256 [1] [0] [0] [1] [] []
  dot_S200000x256_S256x1_S200000x1_1_0_0_1_n_n_wf : DotDims.WF S200000x256 S256x1 S200000x1 [1] [0] [0] [1] [] []
  dot_S1x200000_S200000x256_S1x256_1_0_0_1_n_n_wf : DotDims.WF S1x200000 S200000x256 S1x256 [1] [0] [0] [1] [] []

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def dot_S1x200000_S200000x256_S1x256_1_0_0_1_n_n : DotDims S1x200000 S200000x256 S1x256 where
  lhsContracting := [1]
  rhsContracting := [0]
  lhsNonContracting := [0]
  rhsNonContracting := [1]
  lhsBatch := []
  rhsBatch := []
  wf := dot_S1x200000_S200000x256_S1x256_1_0_0_1_n_n_wf

class Facts : Prop extends Facts₀ where

variable [Facts]
-- ==== Proof.Pieces0.lean ====
/-
  REGION 0 (the column sums of the rows, 25 tiles of 8000 rows): what each case of the body leaves in the running row.
  Each case of the body leaves, in an output's staging buffer, the value of that output's last covering store; a store's
  value is a pure function of the body's loads, and a load of a buffer the same run has already stored reads the stored
  value back. The lemmas below state, for every output and both cases (the first grid point, which resets the running
  rows, and every later point), which pure function of the input blocks and of the running rows that is. They hold for any float values.
-/
import proofs.«135677_j5583457485032_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces0

open Cert.KernelIdeal Cert.KernelIdeal.Gen

variable {F : FTy → Type} [FloatOps F]

/-- The literal offsets of a whole-block access are the zero offsets. -/
theorem hz : (![0, 0] : Fin 2 → Nat) = fun _ => 0 := funext fun a => by fin_cases a <;> rfl

/-- At the first point the running row is reset to zeros, read back, and the tile's column sums are added. -/
theorem out0_A_1_eq (c : Dev nD) (i : grid0.Coords) (arg1 : Memref sig .tc .vmem S8000x256 .f32) (harg1 : arg1.IsWhole) (arg2 : Memref sig .tc .vmem S1x256 .f32) (harg2 : arg2.IsWhole) (hc0 : cond0_0 i) (x0 : Vec F S8000x256 .f32) :
    out0_A_1 c i arg1 harg1 arg2 harg2 hc0 x0 = k0_pay2 (k0_pay1 (F := F)) x0 := by
  -- the buffer's contents are the canonical reading of the case's pieces, which cover the block
  unfold out0_A_1
  rw [View.read_writes_eq_canon _ _ _ (cover0_A_1 c i arg1 harg1 arg2 harg2 hc0 x0)]
  unfold kernelRun0_A
  dsimp only
  sl_unfold_words
  -- two whole-block stores: the later one (the update) decides; its first operand is the load that reads the
  -- reset's zeros back
  rw [View.canon_cons_unit_zero (S := S1x256) hz, View.readCov_unit_zero (S := S1x256) _ hz]
  -- the tile is loaded whole
  simp only [View.readAt_eq_ld, harg1.read_unread, View.ld_unit_zero (S := S8000x256) hz]

/-- At a later point the tile's column sums are added to the running row `xo1`. -/
theorem out0_B_1_eq (c : Dev nD) (i : grid0.Coords) (arg1 : Memref sig .tc .vmem S8000x256 .f32) (harg1 : arg1.IsWhole) (arg2 : Memref sig .tc .vmem S1x256 .f32) (harg2 : arg2.IsWhole) (hc0 : ¬cond0_0 i) (x0 : Vec F S8000x256 .f32) (xo1 : Vec F S1x256 .f32) :
    out0_B_1 c i arg1 harg1 arg2 harg2 hc0 x0 xo1 = k0_pay2 xo1 x0 := by
  -- the buffer's contents are the canonical reading of the case's one piece, which covers the block
  unfold out0_B_1
  rw [View.read_writes_eq_canon _ _ _ (cover0_B_1 c i arg1 harg1 arg2 harg2 hc0 x0 xo1)]
  unfold kernelRun0_B
  dsimp only
  sl_unfold_words
  rw [View.canon_unit_zero (S := S1x256) hz]
  -- both operands are whole-block loads: the running row and the tile
  simp only [View.readAt_eq_ld, harg1.read_unread, harg2.read_unread, View.ld_unit_zero (S := S8000x256) hz,
    View.ld_unit_zero (S := S1x256) hz]

end Cert.KernelIdeal.Pieces0

end
-- ==== Proof.LibTiledSum.lean ====
/-
  GENERAL LEMMAS (no program imported). Sums taken tile by tile.

  A range of P * R places read as P consecutive tiles of R places: summing each tile and then the tiles is the one long
  sum. And a running total that starts at `z` plus the first tile's sum and adds one tile's sum per step holds, after
  step n, `z` plus the sum of the tiles 0 … n. Only commutativity and associativity of the addition are used, so both
  hold in every additive commutative monoid — in particular on the extended reals, where nothing cancels.
-/
import Mathlib.Algebra.BigOperators.Fin
import Mathlib.Algebra.BigOperators.Group.Finset.Basic
import Mathlib.Data.Fintype.BigOperators
import Mathlib.Logic.Equiv.Fin.Basic

namespace Cert.TiledSum

variable {M : Type*} [AddCommMonoid M]

/-- Place r of tile t, among P tiles of R places, lies inside the range. -/
theorem place_lt {P R : ℕ} (t : Fin P) (r : Fin R) : t.val * R + r.val < P * R :=
  calc t.val * R + r.val < t.val * R + R := Nat.add_lt_add_left r.isLt _
    _ = (t.val + 1) * R := (Nat.succ_mul _ _).symm
    _ ≤ P * R := Nat.mul_le_mul_right R t.isLt

/-- The double sum over the tiles and the places of a tile is the sum over the whole range. -/
theorem sum_tiles (P R : ℕ) (f : Fin (P * R) → M) :
    (∑ t : Fin P, ∑ r : Fin R, f ⟨t.val * R + r.val, place_lt t r⟩) = ∑ e, f e := by
  rw [← Fintype.sum_prod_type' (f := fun (t : Fin P) (r : Fin R) => f ⟨t.val * R + r.val, place_lt t r⟩)]
  refine Fintype.sum_equiv (finProdFinEquiv : Fin P × Fin R ≃ Fin (P * R)) _ _ (fun x => ?_)
  refine congrArg f (Fin.ext ?_)
  show x.1.val * R + x.2.val = x.2.val + R * x.1.val
  rw [Nat.mul_comm, Nat.add_comm]

/-- A running total over the first P steps: it starts at `z + tile 0` and adds `tile (n + 1)` at step n + 1. After
    step n it is `z` plus the sum of the tiles 0 … n. -/
theorem running_total (P : ℕ) (acc : (n : ℕ) → n < P → M) (z : M) (tile : (n : ℕ) → n < P → M)
    (h0 : ∀ h, acc 0 h = z + tile 0 h)
    (hs : ∀ n (h : n + 1 < P), acc (n + 1) h = acc n (Nat.lt_of_succ_lt h) + tile (n + 1) h) :
    ∀ n (h : n < P), acc n h = z + ∑ t : Fin (n + 1), tile t.val (lt_of_lt_of_le t.isLt h) := by
  intro n
  induction n with
  | zero => intro h; rw [h0 h, Fin.sum_univ_one]; rfl
  | succ n ih =>
    intro h
    rw [hs n h, ih (Nat.lt_of_succ_lt h), Fin.sum_univ_castSucc (n := n + 1), add_assoc]
    rfl

end Cert.TiledSum
-- ==== Proof.Spec.lean ====
/-
  Two rounds of attention pooling over the rows of a matrix, as plain functions over the extended reals.

  The data are the rows x (n, ·) of a 200000 × 256 matrix. One round takes a direction h (a 1 × 256 row) and gives every
  row the weight  gate (score n),  where  score n = ∑ k, x (n, k) * h (0, k)  and  gate s = logistic (s / max |s| ε):
  the score divided by its own magnitude (floored at ε) and passed through the logistic function. The round re-weighs
  the rows,  x (n, d) * gate (score n),  and pools them,  ∑ n, gate (score n) * x (n, d).  The direction of a round is
  obtained from the column sums of the round's rows by a map H on 1 × 256 rows, which this file never opens (for the
  programs it is: divide by the number of rows, multiply by a head's weight matrix, take tanh). A head runs two rounds:
  the second round's rows are the first round's re-weighed rows, and the head's result is the second round's pool.
-/
import Idealize.ShloMosaic.PureOps.Ideal
import Idealize.ShloMosaic.Lib.ValueIdx
import proofs.«135677_j5583457485032_1_alg».proof.Proof.LibTiledSum

noncomputable section

namespace Cert.Spec

open Idealize.ShloMosaic Idealize.ShloMosaic.ValueIdx

/-- The rows: 200000 × 256. -/
abbrev SX : Shape := ⟨2, ![200000, 256]⟩
/-- One row of 256 entries, kept as a 1 × 256 matrix. -/
abbrev SR : Shape := ⟨2, ![1, 256]⟩
/-- Two such rows, one per head. -/
abbrev SH : Shape := ⟨2, ![2, 256]⟩
/-- The two heads' results side by side. -/
abbrev SO : Shape := ⟨2, ![1, 512]⟩

/-- The two heads' weight matrices, one head's matrix with its leading unit axis, and one head's matrix. -/
abbrev SW : Shape := ⟨3, ![2, 256, 256]⟩
abbrev SW1 : Shape := ⟨3, ![1, 256, 256]⟩
abbrev SM : Shape := ⟨2, ![256, 256]⟩
/-- The scalar shape. -/
abbrev S0 : Shape := ⟨0, ![]⟩

/-- A round's direction from the column sums S of its rows, for the head whose matrix is the slice of W at `off`:
    the mean row S / 200000 (the divisor a splat of the word of 200000.0), times the head's matrix, through tanh. The
    dimension numbers of the product and the shape relations are parameters: each program supplies its own. -/
def hrow (D : DotDims SR SM SR) (hb : S0.BroadcastsInDim SR (![] : Fin 0 → Fin SR.rank)) (off : Fin 3 → Nat)
    (hsl : SW.Slices off SW1) (hc : SW1.ShapeCasts SM) (W : FVec Ideal SW .f32) (S : FVec Ideal SR .f32) : FVec Ideal SR .f32 :=
  Host.tanh (Host.dotGeneral D none (Host.divf S (broadcastInDim SR ![] hb (constant S0 .f32 0x48435000#32)))
    (shapeCast SM (extractStridedSlice SW1 off W hsl) hc))

/-- The floor under a score's magnitude: the single-precision word nearest to 1e-12, read exactly. -/
def eps : EReal := Ideal.ofBits .f32 0x2B8CBCCC#32

/-- The weight of a row with score s. -/
def gate (s : EReal) : EReal := Ideal.logistic (Ideal.div s (max (max s (-s)) eps))

/-- Row n's score against the direction h. -/
def score (x : SX.Idx → EReal) (h : SR.Idx → EReal) (n : Fin 200000) : EReal :=
  ∑ k : Fin 256, x (ix2 n k) * h (ix2 (0 : Fin 1) k)

/-- The column sums of the rows, as a row. -/
def colSum (x : SX.Idx → EReal) : SR.Idx → EReal := fun j => ∑ n : Fin 200000, x (ix2 n (j 1))

/-- The rows re-weighed by their gates. -/
def reweigh (x : SX.Idx → EReal) (h : SR.Idx → EReal) : SX.Idx → EReal := fun i => x i * gate (score x h (i 0))

/-- The gated rows pooled into one row. -/
def pooled (x : SX.Idx → EReal) (h : SR.Idx → EReal) : SR.Idx → EReal :=
  fun j => ∑ n : Fin 200000, gate (score x h n) * x (ix2 n (j 1))

/-- Row a of a pair of rows, as a 1 × 256 row. -/
def rowOf (hh : SH.Idx → EReal) (a : Fin 2) : SR.Idx → EReal := fun j => hh (ix2 a (j 1))

/-- One head: two rounds, the direction of each round obtained by H from the column sums of that round's rows. -/
def head (H : (SR.Idx → EReal) → (SR.Idx → EReal)) (x : SX.Idx → EReal) : SR.Idx → EReal :=
  pooled (reweigh x (H (colSum x))) (H (colSum (reweigh x (H (colSum x)))))

theorem reweigh_apply (x : SX.Idx → EReal) (h : SR.Idx → EReal) (n : Fin 200000) (d : Fin 256) :
    reweigh x h (ix2 n d) = x (ix2 n d) * gate (score x h n) := rfl

theorem colSum_apply (x : SX.Idx → EReal) (u : Fin 1) (d : Fin 256) : colSum x (ix2 u d) = ∑ n : Fin 200000, x (ix2 n d) := rfl

theorem pooled_apply (x : SX.Idx → EReal) (h : SR.Idx → EReal) (u : Fin 1) (d : Fin 256) :
    pooled x h (ix2 u d) = ∑ n : Fin 200000, gate (score x h n) * x (ix2 n d) := rfl

theorem rowOf_apply (hh : SH.Idx → EReal) (a : Fin 2) (u : Fin 1) (d : Fin 256) : rowOf hh a (ix2 u d) = hh (ix2 a d) := rfl

/-- The score reads the direction's row only. -/
theorem score_congr (x : SX.Idx → EReal) (h h' : SR.Idx → EReal) (hh : ∀ k : Fin 256, h (ix2 (0 : Fin 1) k) = h' (ix2 (0 : Fin 1) k))
    (n : Fin 200000) : score x h n = score x h' n :=
  Finset.sum_congr rfl fun k _ => by rw [hh k]

/-- The 200000 rows are P tiles of R rows (P * R = 200000): a sum over the rows is the sum over the tiles of the sums
    over a tile's rows. -/
theorem sum_rows_tiles (P R : ℕ) (hPR : P * R = 200000) (f : Fin 200000 → EReal) :
    (∑ t : Fin P, ∑ r : Fin R, f ⟨t.val * R + r.val, lt_of_lt_of_eq (Cert.TiledSum.place_lt t r) hPR⟩) = ∑ n : Fin 200000, f n := by
  have h := Cert.TiledSum.sum_tiles P R (fun e => f (Fin.cast hPR e))
  rw [show (∑ n : Fin 200000, f n) = ∑ e : Fin (P * R), f (Fin.cast hPR e) from
    (Fintype.sum_equiv (finCongr hPR) _ _ (fun e => rfl)).symm]
  exact h

end Cert.Spec

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.Tile.lean ====
/-
  The arithmetic of one grid point, read at an entry, over the extended reals.

  A tile is a block of consecutive rows of the data, x (r, ·); hh holds the two heads' directions as its two rows. Each
  store of the three kernel bodies is a pure function of the tile, of hh and of a running row acc. Read at an entry:
    • the column sums of the tile added to the running row:            acc (0, d) + ∑ r, x (r, d);
    • a head's re-weighed tile:   x (r, d) * gate (∑ k, x (r, k) * hh (a, k)),   a the head's row of hh;
    • the column sums of a re-weighed tile added to the running row;
    • a head's pooled tile added to the running row:   acc (0, d) + ∑ r, gate (∑ k, x (r, k) * hh (a, k)) * x (r, d).
  The sums over a tile's lanes or rows are the vector unit's reductions from the zero accumulator; the casts between a
  vector of row values, a column and a row, and the broadcasts of a row down a tile and of a column across it, read
  their operand at one entry.
-/
import proofs.«135677_j5583457485032_1_alg».proof.Proof.Gen.KernelIdeal.Skeleton
import proofs.«135677_j5583457485032_1_alg».proof.Proof.Spec
import proofs.«135677_j5583457485032_1_alg».proof.Proof.LibRowColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- The sum of an [a, b] matrix down its columns, over the extended reals, read at column c: the sum over the rows k of
    entry (k, c). The accumulator is the sum's neutral word, so nothing is added to it. -/
private theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => ?_
  exact congrArg src (funext fun e => Fin.ext (by match e with | ⟨0, _⟩ => rfl | ⟨1, _⟩ => rfl))

/-- A running row plus the column sums of a tile of n rows, the sums cast from a vector of 256 to a row: at (u, d) it is
    the running row's entry plus the sum over the tile's rows of their entry d. -/
private theorem acc_add_colSum_apply {n : ℕ} (acc : Vec Ideal S1x256 .f32) (v : FVec Ideal ⟨2, ![n, 256]⟩ .f32)
    (hs : S1x256.ShapeCasts S1x256) (hr : (⟨2, ![n, 256]⟩ : Shape).Reduces [0] S256) (hc : S256.ShapeCasts S1x256)
    (u : Fin 1) (d : Fin 256) :
    addf (shapeCast S1x256 acc hs) (shapeCast S1x256 (multiReduction .add [0] S256 v 0x00000000#32 hr (.inl rfl) rfl) hc) (ix2 u d)
      = acc (ix2 u d) + ∑ r : Fin n, v (ix2 r d) := by
  rw [addf_apply, shapeCast_self, shapeCast_a_1a_apply]
  exact congrArg (acc (ix2 u d) + ·) (colSum_apply v _ hr _ _ d)

/-- The reset rows are zero everywhere. -/
theorem k0_pay1_apply (j : S1x256.Idx) : k0_pay1 (F := Ideal) j = 0 := Ideal.ofBits_zero_f32
theorem k1_pay2_apply (j : S1x256.Idx) : k1_pay2 (F := Ideal) j = 0 := Ideal.ofBits_zero_f32
theorem k1_pay3_apply (j : S1x256.Idx) : k1_pay3 (F := Ideal) j = 0 := Ideal.ofBits_zero_f32
theorem k2_pay2_apply (j : S1x256.Idx) : k2_pay2 (F := Ideal) j = 0 := Ideal.ofBits_zero_f32
theorem k2_pay3_apply (j : S1x256.Idx) : k2_pay3 (F := Ideal) j = 0 := Ideal.ofBits_zero_f32

/-- REGION 0: the running row plus the column sums of a tile of 8000 rows. -/
theorem k0_pay2_apply (acc : Vec Ideal S1x256 .f32) (x : Vec Ideal S8000x256 .f32) (u : Fin 1) (d : Fin 256) :
    k0_pay2 (F := Ideal) acc x (ix2 u d) = acc (ix2 u d) + ∑ r : Fin 8000, x (ix2 r d) :=
  acc_add_colSum_apply acc x _ _ _ u d

/-- The scores of a tile's rows against row a of the pair H, as a column: the tile times H's row a broadcast down it,
    summed along the lanes and cast to a column. At (r, u) it is the sum over k of X (r, k) * H (a, k); the tile and the
    pair may be given through equal forms X', H' (a cast of a shape to itself), which the sum is then written in. -/
private theorem scoreCol_apply (X X' : FVec Ideal S2000x256 .f32) (hX : X = X') (H H' : FVec Ideal S2x256 .f32) (hH : H = H')
    (o : ℕ) (a : Fin 2) (ha : a.val = o)
    (hsl : S2x256.Slices ![o, 0] S1x256) (hb : S1x256.Broadcasts S2000x256) (hr : S2000x256.Reduces [1] S2000)
    (hc : S2000.ShapeCasts S2000x1) (r : Fin 2000) (u : Fin 1) :
    shapeCast S2000x1 (multiReduction .add [1] S2000 (mulf X (broadcastTo S2000x256 (extractStridedSlice S1x256 ![o, 0] H hsl) hb))
        0x00000000#32 hr (.inl rfl) rfl) hc (ix2 r u)
      = ∑ k : Fin 256, X' (ix2 r k) * H' (ix2 a k) := by
  subst hX hH
  refine (Cert.RowColumn.shapeCast_a_a1_apply _ hc r u).trans ?_
  refine (Cert.RowColumn.rowSum_apply _ _ hr _ _ r).trans ?_
  refine Finset.sum_congr rfl fun k _ => ?_
  refine (mulf_apply _ _ _).trans (congrArg (X (ix2 r k) * ·) ?_)
  refine (broadcastTo_1b_ab_apply _ hb r k).trans ?_
  exact slice2_axis0_apply o H hsl (0 : Fin 1) k a ha

/-- The gate of a column of scores: the score over its magnitude floored at eps, through the logistic function. Where
    the column reads σ, the result reads gate σ. -/
private theorem gate_of_score (s : FVec Ideal S2000x1 .f32) (r : Fin 2000) (u : Fin 1) (σ : EReal) (hs : s (ix2 r u) = σ) :
    logistic (divf s (maximumf (absf s) (broadcast S2000x1 (Scalar.ofBits .f32 0x2B8CBCCC#32)))) (ix2 r u) = Cert.Spec.gate σ := by
  subst hs
  rfl

/-- The gate column broadcast across the tile reads, at (r, d), the gate of row r's score. -/
private theorem gateTile_apply (s : FVec Ideal S2000x1 .f32) (hb : S2000x1.Broadcasts S2000x256) (r : Fin 2000) (d : Fin 256)
    (σ : EReal) (hs : s (ix2 r (0 : Fin 1)) = σ) :
    broadcastTo S2000x256 (logistic (divf s (maximumf (absf s) (broadcast S2000x1 (Scalar.ofBits .f32 0x2B8CBCCC#32))))) hb (ix2 r d)
      = Cert.Spec.gate σ :=
  (Cert.RowColumn.broadcastTo_a1_ab_apply _ hb r d).trans (gate_of_score s r (0 : Fin 1) σ hs)

/-- REGION 1, head 0: the re-weighed tile. -/
theorem k1_pay5_apply (x : Vec Ideal S2000x256 .f32) (hh : Vec Ideal S2x256 .f32) (r : Fin 2000) (d : Fin 256) :
    k1_pay5 (F := Ideal) x hh (ix2 r d) = x (ix2 r d) * Cert.Spec.gate (∑ k : Fin 256, x (ix2 r k) * hh (ix2 (0 : Fin 2) k)) :=
  (mulf_apply _ _ _).trans (congrArg (x (ix2 r d) * ·) (gateTile_apply _ _ r d _
    (scoreCol_apply x x rfl (k1_pay4 hh) hh (shapeCast_self hh _) 0 (0 : Fin 2) rfl slices_S2x256_o0_0_S1x256
      broadcasts_S1x256_S2000x256 reduces_S2000x256_S2000 shapeCasts_S2000_S2000x1 r (0 : Fin 1))))

/-- REGION 1, head 1: the re-weighed tile. -/
theorem k1_pay7_apply (x : Vec Ideal S2000x256 .f32) (hh : Vec Ideal S2x256 .f32) (r : Fin 2000) (d : Fin 256) :
    k1_pay7 (F := Ideal) x hh (ix2 r d) = x (ix2 r d) * Cert.Spec.gate (∑ k : Fin 256, x (ix2 r k) * hh (ix2 (1 : Fin 2) k)) :=
  (mulf_apply _ _ _).trans (congrArg (x (ix2 r d) * ·) (gateTile_apply _ _ r d _
    (scoreCol_apply x x rfl (k1_pay4 hh) hh (shapeCast_self hh _) 1 (1 : Fin 2) rfl slices_S2x256_o1_0_S1x256
      broadcasts_S1x256_S2000x256 reduces_S2000x256_S2000 shapeCasts_S2000_S2000x1 r (0 : Fin 1))))

/-- REGION 1, head 0: the running row plus the column sums of the re-weighed tile. -/
theorem k1_pay6_apply (x : Vec Ideal S2000x256 .f32) (hh : Vec Ideal S2x256 .f32) (acc : Vec Ideal S1x256 .f32) (u : Fin 1) (d : Fin 256) :
    k1_pay6 (F := Ideal) x hh acc (ix2 u d) = acc (ix2 u d) + ∑ r : Fin 2000, k1_pay5 (F := Ideal) x hh (ix2 r d) :=
  acc_add_colSum_apply acc (k1_pay5 (F := Ideal) x hh) _ _ _ u d

/-- REGION 1, head 1: the running row plus the column sums of a tile v (the body passes head 1's re-weighed tile). -/
theorem k1_pay1_apply (v : FVec Ideal S2000x256 .f32) (acc : Vec Ideal S1x256 .f32) (u : Fin 1) (d : Fin 256) :
    k1_pay1 (F := Ideal) v acc (ix2 u d) = acc (ix2 u d) + ∑ r : Fin 2000, v (ix2 r d) :=
  acc_add_colSum_apply acc v _ _ _ u d

/-- REGION 2, head 0: the running row plus the tile's gated rows. -/
theorem k2_pay6_apply (x : Vec Ideal S2000x256 .f32) (hh : Vec Ideal S2x256 .f32) (acc : Vec Ideal S1x256 .f32) (u : Fin 1) (d : Fin 256) :
    k2_pay6 (F := Ideal) x hh acc (ix2 u d)
      = acc (ix2 u d) + ∑ r : Fin 2000, Cert.Spec.gate (∑ k : Fin 256, x (ix2 r k) * hh (ix2 (0 : Fin 2) k)) * x (ix2 r d) := by
  have e4 : shapeCast S2000x256 x shapeCasts_S2000x256_S2000x256 = x := shapeCast_self x _
  refine (acc_add_colSum_apply acc _ _ _ _ u d).trans (congrArg (acc (ix2 u d) + ·) ?_)
  refine Finset.sum_congr rfl fun r _ => ?_
  exact congrArg₂ (fun a b : EReal => a * b)
    (gateTile_apply _ _ r d _
      (scoreCol_apply (shapeCast S2000x256 x shapeCasts_S2000x256_S2000x256) x e4 (k2_pay5 hh) hh (shapeCast_self hh _) 0 (0 : Fin 2) rfl
        slices_S2x256_o0_0_S1x256 broadcasts_S1x256_S2000x256 reduces_S2000x256_S2000 shapeCasts_S2000_S2000x1 r (0 : Fin 1)))
    (congrFun e4 (ix2 r d))

/-- REGION 2, head 1: the running row plus the tile's gated rows. -/
theorem k2_pay1_apply (x : Vec Ideal S2000x256 .f32) (hh : Vec Ideal S2x256 .f32) (acc : Vec Ideal S1x256 .f32) (u : Fin 1) (d : Fin 256) :
    k2_pay1 (F := Ideal) (k2_pay4 (F := Ideal) x) (k2_pay7 (F := Ideal) x hh) acc (ix2 u d)
      = acc (ix2 u d) + ∑ r : Fin 2000, Cert.Spec.gate (∑ k : Fin 256, x (ix2 r k) * hh (ix2 (1 : Fin 2) k)) * x (ix2 r d) := by
  have e4 : k2_pay4 (F := Ideal) x = x := shapeCast_self x _
  refine (acc_add_colSum_apply acc _ _ _ _ u d).trans (congrArg (acc (ix2 u d) + ·) ?_)
  refine Finset.sum_congr rfl fun r _ => ?_
  exact congrArg₂ (fun a b : EReal => a * b)
    (gateTile_apply _ _ r d _
      (scoreCol_apply (k2_pay4 x) x e4 (k2_pay5 hh) hh (shapeCast_self hh _) 1 (1 : Fin 2) rfl
        slices_S2x256_o1_0_S1x256 broadcasts_S1x256_S2000x256 reduces_S2000x256_S2000 shapeCasts_S2000_S2000x1 r (0 : Fin 1)))
    (congrFun e4 (ix2 r d))

end Cert.KernelIdeal.Tile

end
-- ==== Proof.Region0.lean ====
/-
  REGION 0 read as a value: the running row over the 25 tiles of 8000 rows ends at the column sums of the whole data.

  After the body at tile n the running row holds the column sums of the tiles 0 … n: it starts from zeros at tile 0 and
  every later tile adds its own column sums. Its block never moves, so the one write-back, after the last tile, leaves
  the result array holding the column sums of all 200000 rows: the 25 tiles of 8000 rows are the rows.
-/
import proofs.«135677_j5583457485032_1_alg».proof.Proof.Gen.KernelIdeal.Frame
import proofs.«135677_j5583457485032_1_alg».proof.Proof.Pieces0
import proofs.«135677_j5583457485032_1_alg».proof.Proof.Tile
import proofs.«135677_j5583457485032_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

-- the TensorCore's buffer contents when the region is entered
variable (V : (c : Dev nD) → (b : Ref sig .tc) → Buf (Elt Ideal) ((c : Thread nD τ).loc b))

/-- The data as the region finds it. -/
abbrev xarr (c : Dev nD) : FVec Ideal S200000x256 .f32 := V c main_arg0
/-- Its tile at grid point t: the block the data window reads there. -/
abbrev xblk (c : Dev nD) (t : Fin cfg0.N) : Vec Ideal S8000x256 .f32 := iblk0 V c 0 t

/-- The data window's block index at point t is (t, 0). -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row r of tile n is a row of the data. -/
theorem row_lt (n : ℕ) (h : n < cfg0.N) (r : Fin 8000) : n * 8000 + r.val < 200000 := by
  have hN : cfg0.N = 25 := N_0
  have := r.isLt
  omega

/-- The tile at point t, read at (r, d), is the data at row t * 8000 + r, column d. -/
theorem xblk_apply (c : Dev nD) (t : Fin cfg0.N) (r : Fin 8000) (d : Fin 256) :
    xblk V c t (ix2 r d) = xarr V c (ix2 ⟨t.val * 8000 + r.val, row_lt t.val t.isLt r⟩ d) := by
  unfold xblk iblk0
  rw [View.read_apply]
  show V c main_arg0 _ = V c main_arg0 _
  congr 1
  funext a
  apply Fin.ext
  match a with
  | ⟨0, _⟩ => show win0_0.index t 0 * 8000 + 1 * r.val = t.val * 8000 + r.val; rw [(idx0 t).1]; omega
  | ⟨1, _⟩ => show win0_0.index t 1 * 256 + 1 * d.val = d.val; rw [(idx0 t).2]; omega

/-- The column sums of tile n, at column d. -/
def tileSum (c : Dev nD) (d : Fin 256) (n : ℕ) (h : n < cfg0.N) : EReal :=
  ∑ r : Fin 8000, xarr V c (ix2 ⟨n * 8000 + r.val, row_lt n h r⟩ d)

/-- The column sums of the block read at point n are those of tile n of the data. -/
theorem tile_entry (c : Dev nD) (d : Fin 256) (n : ℕ) (h : n < cfg0.N) :
    (∑ r : Fin 8000, xblk V c ⟨n, h⟩ (ix2 r d)) = tileSum V c d n h :=
  Finset.sum_congr rfl fun r _ => xblk_apply V c ⟨n, h⟩ r d

/-- At the first point the running row is the zero row plus the first tile's column sums. -/
theorem outs_zero (c : Dev nD) (h : 0 < cfg0.N) :
    outsAt0 V c 0 h = k0_pay2 (k0_pay1 (F := Ideal)) (xblk V c ⟨0, h⟩) :=
  (outsAt0_A V c ⟨0, h⟩ rfl).trans
    (Pieces0.out0_A_1_eq (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (iblk0 V c 0 ⟨0, h⟩))

/-- At a later point the tile's column sums are added to the running row the point before left. -/
theorem outs_succ (c : Dev nD) (n : ℕ) (h : n + 1 < cfg0.N) :
    outsAt0 V c (n + 1) h = k0_pay2 (outsAt0 V c n (Nat.lt_of_succ_lt h)) (xblk V c ⟨n + 1, h⟩) := by
  have hB : ¬(⟨n + 1, h⟩ : Fin cfg0.N).val % 25 = 0 := by
    have hN : cfg0.N = 25 := N_0
    dsimp only
    omega
  rw [outsAt0_B V c ⟨n + 1, h⟩ hB]
  exact Pieces0.out0_B_1_eq (F := Ideal) c (grid0.coords ⟨n + 1, h⟩) (ms0_0 ⟨n + 1, h⟩) (hs0_0 ⟨n + 1, h⟩) (ms0_1 ⟨n + 1, h⟩)
    (hs0_1 ⟨n + 1, h⟩) (fun hh => hB ((hcond0_0 ⟨n + 1, h⟩).mp hh)) (iblk0 V c 0 ⟨n + 1, h⟩)
    (outsAt0 V c n (Nat.lt_of_succ_lt h))

/-- After point n the running row holds, at column d, the column sums of the tiles 0 … n. -/
theorem outs_entry (c : Dev nD) (u : Fin 1) (d : Fin 256) (n : ℕ) (h : n < cfg0.N) :
    outsAt0 V c n h (ix2 u d) = 0 + ∑ t : Fin (n + 1), tileSum V c d t.val (lt_of_lt_of_le t.isLt h) :=
  Cert.TiledSum.running_total (M := EReal) cfg0.N (fun n h => outsAt0 V c n h (ix2 u d)) 0 (tileSum V c d)
    (fun h => by
      show outsAt0 V c 0 h (ix2 u d) = 0 + tileSum V c d 0 h
      rw [outs_zero V c h, Tile.k0_pay2_apply, Tile.k0_pay1_apply, tile_entry])
    (fun n h => by
      show outsAt0 V c (n + 1) h (ix2 u d) = outsAt0 V c n (Nat.lt_of_succ_lt h) (ix2 u d) + tileSum V c d (n + 1) h
      rw [outs_succ V c n h, Tile.k0_pay2_apply, tile_entry])
    n h

/-- The column sums of the data, as contents of the result array. -/
abbrev result (c : Dev nD) : Buf (Elt Ideal) ((c : Thread nD τ).loc main_v0) := Cert.Spec.colSum (xarr V c)

/-- The last grid point. -/
abbrev tlast : Fin cfg0.N := ⟨24, by rw [show cfg0.N = 25 from N_0]; decide⟩

/-- After the last point the running row holds the column sums of all the rows: the 25 tiles of 8000 rows are the rows. -/
theorem outs_last (c : Dev nD) : outsAt0 V c tlast.val tlast.isLt = result V c := by
  funext j
  obtain ⟨u, d, rfl⟩ : ∃ (u : Fin 1) (d : Fin 256), j = ix2 u d := ⟨j 0, j 1, eq_ix2 j⟩
  refine (outs_entry V c u d 24 tlast.isLt).trans ?_
  rw [zero_add]
  show _ = Cert.Spec.colSum (xarr V c) (ix2 u d)
  rw [Cert.Spec.colSum_apply, ← Cert.Spec.sum_rows_tiles 25 8000 rfl]
  rfl

/-- The one write-back, after the last point, writes the running row: the block is the whole result array. -/
theorem flushed_eq (c : Dev nD) (t : Fin cfg0.N) (hf : (cfg0.win 1).flush t = true) :
    (dat0 V c).flushed 1 t = ((cfg0.win 1).blk t).view.read (Elt Ideal) (result V c) := by
  have hN : cfg0.N = 25 := N_0
  have h24 : t.val = 24 := by have := (flush0_1 t).mp hf; have := t.isLt; omega
  obtain rfl : t = tlast := Fin.ext h24
  show (cfg0.win 1).cut (grid0.coords tlast) ((dat0 V c).after 1 tlast) = _
  rw [after0_1, outs_last]
  have hz' : (fun a => win0_1.index tlast a * main_v0.ty.shape.size a) = fun _ => 0 := funext fun a => by fin_cases a <;> decide
  exact (Memref.read_access_unit_zero (Elt Ideal) main_v0 hz' (fun a => by rw [congrFun hz' a]; simp) (result V c)).symm

/-- The region leaves, in its result array, the column sums of the data it was entered with. -/
theorem colsum_eq (c : Dev nD) :
    ((dat0 (F := Ideal) V c).arrAt 1 cfg0.N : FVec Ideal S1x256 .f32) = Cert.Spec.colSum (V c main_arg0 : FVec Ideal S200000x256 .f32) := by
  refine (dat0 V c).arrAt_eq_of_cover 1 (result V c) (flushed_eq V c) fun i => ⟨tlast, (flush0_1 tlast).mpr rfl, ?_⟩
  show i ∈ ((View.whole main_v0).slice (win0_1.rect tlast)).set
  rw [View.set_slice_whole, Rect.mem_set_unit]
  intro a
  have h0 : (i 0 : Nat) < 1 := (i 0).isLt
  have h1 : (i 1 : Nat) < 256 := (i 1).isLt
  match a with
  | ⟨0, _⟩ =>
    show win0_1.index tlast 0 * win0_1.size 0 ≤ (i 0 : Nat)
      ∧ (i 0 : Nat) < win0_1.index tlast 0 * win0_1.size 0 + win0_1.xsize (grid0.coords tlast) 0
    rw [show win0_1.index tlast 0 * win0_1.size 0 = 0 from by decide +kernel,
      show win0_1.xsize (grid0.coords tlast) 0 = 1 from by decide +kernel]
    omega
  | ⟨1, _⟩ =>
    show win0_1.index tlast 1 * win0_1.size 1 ≤ (i 1 : Nat)
      ∧ (i 1 : Nat) < win0_1.index tlast 1 * win0_1.size 1 + win0_1.xsize (grid0.coords tlast) 1
    rw [show win0_1.index tlast 1 * win0_1.size 1 = 0 from by decide +kernel,
      show win0_1.xsize (grid0.coords tlast) 1 = 256 from by decide +kernel]
    omega

end Cert.KernelIdeal.Region0

end
-- ==== Proof.Pieces1.lean ====
/-
  REGION 1 (the first round, 100 tiles of 2000 rows, both heads): what each case of the body leaves in the two re-weighed tiles and the two running rows.
  Each case of the body leaves, in an output's staging buffer, the value of that output's last covering store; a store's
  value is a pure function of the body's loads, and a load of a buffer the same run has already stored reads the stored
  value back. The lemmas below state, for every output and both cases (the first grid point, which resets the running
  rows, and every later point), which pure function of the input blocks and of the running rows that is. They hold for any float values.
-/
import proofs.«135677_j5583457485032_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces1

open Cert.KernelIdeal Cert.KernelIdeal.Gen

variable {F : FTy → Type} [FloatOps F]

/-- The literal offsets of a whole-block access are the zero offsets. -/
theorem hz : (![0, 0] : Fin 2 → Nat) = fun _ => 0 := funext fun a => by fin_cases a <;> rfl

/-- Head 0's re-weighed tile is stored whole (first point). -/
theorem out1_A_2_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : cond1_0 i) (x0 : Vec F S2000x256 .f32) (x1 : Vec F S2x256 .f32) :
    out1_A_2 c i arg1 harg1 arg2 harg2 arg3 harg3 arg4 harg4 arg5 harg5 arg6 harg6 hc0 x0 x1 = k1_pay5 x0 x1 := by
  unfold out1_A_2
  rw [View.read_writes_eq_canon _ _ _ (cover1_A_2 c i arg1 harg1 arg2 harg2 arg3 harg3 arg4 harg4 arg5 harg5 arg6 harg6 hc0 x0 x1)]
  unfold kernelRun1_A
  dsimp only
  sl_unfold_words
  rw [View.canon_unit_zero hz]
  simp only [View.readAt_eq_ld, harg1.read_unread, harg2.read_unread, View.ld_unit_zero (S := S2000x256) hz,
    View.ld_unit_zero (S := S2x256) hz]

/-- Head 1's re-weighed tile is stored whole (first point). -/
theorem out1_A_3_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : cond1_0 i) (x0 : Vec F S2000x256 .f32) (x1 : Vec F S2x256 .f32) :
    out1_A_3 c i arg1 harg1 arg2 harg2 arg3 harg3 arg4 harg4 arg5 harg5 arg6 harg6 hc0 x0 x1 = k1_pay7 x0 x1 := by
  unfold out1_A_3
  rw [View.read_writes_eq_canon _ _ _ (cover1_A_3 c i arg1 harg1 arg2 harg2 arg3 harg3 arg4 harg4 arg5 harg5 arg6 harg6 hc0 x0 x1)]
  unfold kernelRun1_A
  dsimp only
  sl_unfold_words
  rw [View.canon_unit_zero hz]
  simp only [View.readAt_eq_ld, harg1.read_unread, harg2.read_unread, View.ld_unit_zero (S := S2000x256) hz,
    View.ld_unit_zero (S := S2x256) hz]

/-- Head 0's running row: reset to zeros, then the column sums of head 0's re-weighed tile added (first point). -/
theorem out1_A_4_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : cond1_0 i) (x0 : Vec F S2000x256 .f32) (x1 : Vec F S2x256 .f32) :
    out1_A_4 c i arg1 harg1 arg2 harg2 arg3 harg3 arg4 harg4 arg5 harg5 arg6 harg6 hc0 x0 x1 = k1_pay6 x0 x1 (k1_pay2 (F := F)) := by
  unfold out1_A_4
  rw [View.read_writes_eq_canon _ _ _ (cover1_A_4 c i arg1 harg1 arg2 harg2 arg3 harg3 arg4 harg4 arg5 harg5 arg6 harg6 hc0 x0 x1)]
  unfold kernelRun1_A
  dsimp only
  sl_unfold_words
  rw [View.canon_cons_unit_zero (S := S1x256) hz, View.readCov_unit_zero (S := S1x256) _ hz]
  simp only [View.readAt_eq_ld, harg1.read_unread, harg2.read_unread, View.ld_unit_zero (S := S2000x256) hz,
    View.ld_unit_zero (S := S2x256) hz]

/-- Head 1's running row: reset to zeros, then the column sums of head 1's re-weighed tile added (first point). -/
theorem out1_A_5_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : cond1_0 i) (x0 : Vec F S2000x256 .f32) (x1 : Vec F S2x256 .f32) :
    out1_A_5 c i arg1 harg1 arg2 harg2 arg3 harg3 arg4 harg4 arg5 harg5 arg6 harg6 hc0 x0 x1 = k1_pay1 (k1_pay7 x0 x1) (k1_pay3 (F := F)) := by
  unfold out1_A_5
  rw [View.read_writes_eq_canon _ _ _ (cover1_A_5 c i arg1 harg1 arg2 harg2 arg3 harg3 arg4 harg4 arg5 harg5 arg6 harg6 hc0 x0 x1)]
  unfold kernelRun1_A
  dsimp only
  sl_unfold_words
  rw [View.canon_cons_unit_zero (S := S1x256) hz, View.readCov_unit_zero (S := S1x256) _ hz]
  simp only [View.readAt_eq_ld, harg1.read_unread, harg2.read_unread, View.ld_unit_zero (S := S2000x256) hz,
    View.ld_unit_zero (S := S2x256) hz]

/-- Head 0's re-weighed tile is stored whole (a later point). -/
theorem out1_B_2_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (x0 : Vec F S2000x256 .f32) (x1 : Vec F S2x256 .f32) (xo4 : Vec F S1x256 .f32) (xo5 : Vec F S1x256 .f32) :
    out1_B_2 c i arg1 harg1 arg2 harg2 arg3 harg3 arg4 harg4 arg5 harg5 arg6 harg6 hc0 x0 x1 xo4 xo5 = k1_pay5 x0 x1 := by
  unfold out1_B_2
  rw [View.read_writes_eq_canon _ _ _ (cover1_B_2 c i arg1 harg1 arg2 harg2 arg3 harg3 arg4 harg4 arg5 harg5 arg6 harg6 hc0 x0 x1 xo4 xo5)]
  unfold kernelRun1_B
  dsimp only
  sl_unfold_words
  rw [View.canon_unit_zero hz]
  simp only [View.readAt_eq_ld, harg1.read_unread, harg2.read_unread, View.ld_unit_zero (S := S2000x256) hz,
    View.ld_unit_zero (S := S2x256) hz]

/-- Head 1's re-weighed tile is stored whole (a later point). -/
theorem out1_B_3_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (x0 : Vec F S2000x256 .f32) (x1 : Vec F S2x256 .f32) (xo4 : Vec F S1x256 .f32) (xo5 : Vec F S1x256 .f32) :
    out1_B_3 c i arg1 harg1 arg2 harg2 arg3 harg3 arg4 harg4 arg5 harg5 arg6 harg6 hc0 x0 x1 xo4 xo5 = k1_pay7 x0 x1 := by
  unfold out1_B_3
  rw [View.read_writes_eq_canon _ _ _ (cover1_B_3 c i arg1 harg1 arg2 harg2 arg3 harg3 arg4 harg4 arg5 harg5 arg6 harg6 hc0 x0 x1 xo4 xo5)]
  unfold kernelRun1_B
  dsimp only
  sl_unfold_words
  rw [View.canon_unit_zero hz]
  simp only [View.readAt_eq_ld, harg1.read_unread, harg2.read_unread, View.ld_unit_zero (S := S2000x256) hz,
    View.ld_unit_zero (S := S2x256) hz]

/-- Head 0's running row `xo4` plus the column sums of head 0's re-weighed tile (a later point). -/
theorem out1_B_4_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (x0 : Vec F S2000x256 .f32) (x1 : Vec F S2x256 .f32) (xo4 : Vec F S1x256 .f32) (xo5 : Vec F S1x256 .f32) :
    out1_B_4 c i arg1 harg1 arg2 harg2 arg3 harg3 arg4 harg4 arg5 harg5 arg6 harg6 hc0 x0 x1 xo4 xo5 = k1_pay6 x0 x1 xo4 := by
  unfold out1_B_4
  rw [View.read_writes_eq_canon _ _ _ (cover1_B_4 c i arg1 harg1 arg2 harg2 arg3 harg3 arg4 harg4 arg5 harg5 arg6 harg6 hc0 x0 x1 xo4 xo5)]
  unfold kernelRun1_B
  dsimp only
  sl_unfold_words
  rw [View.canon_unit_zero hz]
  simp only [View.readAt_eq_ld, harg1.read_unread, harg2.read_unread, harg5.read_unread,
    View.ld_unit_zero (S := S2000x256) hz, View.ld_unit_zero (S := S2x256) hz, View.ld_unit_zero (S := S1x256) hz]

/-- Head 1's running row `xo5` plus the column sums of head 1's re-weighed tile (a later point). -/
theorem out1_B_5_eq (c : Dev nD) (i : grid1.Coords) (arg1 : Memref sig .tc .vmem S2000x256 .f32) (harg1 : arg1.IsWhole) (arg2 : Memref sig .tc .vmem S2x256 .f32) (harg2 : arg2.IsWhole) (arg3 : Memref sig .tc .vmem S2000x256 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (x0 : Vec F S2000x256 .f32) (x1 : Vec F S2x256 .f32) (xo4 : Vec F S1x256 .f32) (xo5 : Vec F S1x256 .f32) :
    out1_B_5 c i arg1 harg1 arg2 harg2 arg3 harg3 arg4 harg4 arg5 harg5 arg6 harg6 hc0 x0 x1 xo4 xo5 = k1_pay1 (k1_pay7 x0 x1) xo5 := by
  unfold out1_B_5
  rw [View.read_writes_eq_canon _ _ _ (cover1_B_5 c i arg1 harg1 arg2 harg2 arg3 harg3 arg4 harg4 arg5 harg5 arg6 harg6 hc0 x0 x1 xo4 xo5)]
  unfold kernelRun1_B
  dsimp only
  sl_unfold_words
  rw [View.canon_unit_zero hz]
  simp only [View.readAt_eq_ld, harg1.read_unread, harg2.read_unread, harg6.read_unread,
    View.ld_unit_zero (S := S2000x256) hz, View.ld_unit_zero (S := S2x256) hz, View.ld_unit_zero (S := S1x256) hz]

end Cert.KernelIdeal.Pieces1

end
-- ==== Proof.Region1.lean ====
/-
  REGION 1 read as values, head 0: the first round over the 100 tiles of 2000 rows.

  Per tile the body stores the head's re-weighed tile, x (r, d) * gate (score r), the score taken against the head's row
  of the direction pair, and adds the tile's column sums to the head's running row (reset at tile 0). A re-weighed tile
  is written back at every tile, to the rows the tile was read from, so the result array is the data re-weighed
  row by row; the running row's block never moves, so it ends at the column sums of the re-weighed data.
-/
import proofs.«135677_j5583457485032_1_alg».proof.Proof.Gen.KernelIdeal.Frame
import proofs.«135677_j5583457485032_1_alg».proof.Proof.Pieces1
import proofs.«135677_j5583457485032_1_alg».proof.Proof.Tile
import proofs.«135677_j5583457485032_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

-- the TensorCore's buffer contents when the region is entered
variable (V : (c : Dev nD) → (b : Ref sig .tc) → Buf (Elt Ideal) ((c : Thread nD τ).loc b))

/-! ## The blocks the body reads -/

/-- The data and the direction pair as the region finds them, and their blocks at a grid point, at their literal types. -/
abbrev xarr (c : Dev nD) : FVec Ideal S200000x256 .f32 := V c main_arg0
abbrev harr (c : Dev nD) : FVec Ideal S2x256 .f32 := V c main_v11
abbrev xblk (c : Dev nD) (t : Fin cfg1.N) : Vec Ideal S2000x256 .f32 := iblk1 V c 0 t
abbrev hblk (c : Dev nD) (t : Fin cfg1.N) : Vec Ideal S2x256 .f32 := iblk1 V c 1 t

/-- The index maps over the grid: the data's and the re-weighed rows' block at point t is block (t, 0); the direction
    pair's and the running rows' block is always block (0, 0). -/
theorem idx_facts : ∀ t : Fin cfg1.N, win1_0.index t 0 = t.val ∧ win1_0.index t 1 = 0
    ∧ win1_1.index t 0 = 0 ∧ win1_1.index t 1 = 0 :=
  (by decide +kernel : ∀ t : Fin grid1.N, win1_0.index t 0 = t.val ∧ win1_0.index t 1 = 0
    ∧ win1_1.index t 0 = 0 ∧ win1_1.index t 1 = 0)

/-- Row r of tile t is a row of the data. -/
theorem row_lt (t : Fin cfg1.N) (r : Fin 2000) : t.val * 2000 + r.val < 200000 := by
  have ht : t.val < 100 := lt_of_lt_of_eq t.isLt (show cfg1.N = 100 from N_1)
  have hr := r.isLt
  omega

/-- The data's block at point t is rows 2000 t … 2000 t + 1999. -/
theorem xblk_apply (c : Dev nD) (t : Fin cfg1.N) (r : Fin 2000) (d : Fin 256) :
    xblk V c t (ix2 r d) = xarr V c (ix2 ⟨t.val * 2000 + r.val, row_lt t r⟩ d) := by
  unfold xblk xarr iblk1
  rw [View.read_apply]
  show V c main_arg0 _ = V c main_arg0 _
  congr 1
  funext a
  apply Fin.ext
  match a with
  | ⟨0, _⟩ => show win1_0.index t 0 * 2000 + 1 * r.val = t.val * 2000 + r.val; rw [(idx_facts t).1]; omega
  | ⟨1, _⟩ => show win1_0.index t 1 * 256 + 1 * d.val = d.val; rw [(idx_facts t).2.1]; omega

/-- The direction pair's block is the whole pair. -/
theorem hblk_apply (c : Dev nD) (t : Fin cfg1.N) (a : Fin 2) (k : Fin 256) :
    hblk V c t (ix2 a k) = harr V c (ix2 a k) := by
  unfold hblk harr iblk1
  rw [View.read_apply]
  show V c main_v11 _ = V c main_v11 _
  congr 1
  funext b
  apply Fin.ext
  match b with
  | ⟨0, _⟩ => show win1_1.index t 0 * 2 + 1 * a.val = a.val; rw [(idx_facts t).2.2.1]; omega
  | ⟨1, _⟩ => show win1_1.index t 1 * 256 + 1 * k.val = k.val; rw [(idx_facts t).2.2.2]; omega

/-! ## Head 0: the re-weighed rows -/

/-- The data re-weighed against head 0's direction. -/
abbrev G0 (c : Dev nD) : FVec Ideal S200000x256 .f32 :=
  Cert.Spec.reweigh (xarr V c) (Cert.Spec.rowOf (harr V c) 0)

/-- The re-weighed tile of point t's blocks, read at an entry, is the re-weighed data at the tile's row. -/
theorem tile0_apply (c : Dev nD) (t : Fin cfg1.N) (r : Fin 2000) (d : Fin 256) :
    k1_pay5 (F := Ideal) (xblk V c t) (hblk V c t) (ix2 r d) = G0 V c (ix2 ⟨t.val * 2000 + r.val, row_lt t r⟩ d) := by
  refine (Tile.k1_pay5_apply (xblk V c t) (hblk V c t) r d).trans ?_
  simp only [xblk_apply, hblk_apply]
  rfl

/-- At every point the body leaves head 0's re-weighed tile of the point's blocks in window 2's buffer. -/
theorem out2_eq (c : Dev nD) (t : Fin cfg1.N) :
    (outsAt1 V c t.val t.isLt).1 = k1_pay5 (F := Ideal) (xblk V c t) (hblk V c t) := by
  by_cases h0 : t.val % 100 = 0
  · rw [outsAt1_A V c t h0]
    dsimp only
    exact Pieces1.out1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (hblk V c t)
  · rw [outsAt1_B V c t h0]
    dsimp only
    exact Pieces1.out1_B_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (hblk V c t)
      (outsAt1 V c (t.val - 1) (Nat.lt_of_le_of_lt (Nat.sub_le _ _) t.isLt)).2.2.1
      (outsAt1 V c (t.val - 1) (Nat.lt_of_le_of_lt (Nat.sub_le _ _) t.isLt)).2.2.2

/-- The index map of head 0's re-weighed rows over the grid: block (t, 0) at point t. -/
theorem idx_facts2 : ∀ t : Fin cfg1.N, win1_2.index t 0 = t.val ∧ win1_2.index t 1 = 0 :=
  (by decide +kernel : ∀ t : Fin grid1.N, win1_2.index t 0 = t.val ∧ win1_2.index t 1 = 0)

/-- What point t writes back to head 0's re-weighed rows is its block of the re-weighed data. -/
theorem flushed2_eq (c : Dev nD) (t : Fin cfg1.N) (hf : (cfg1.win 2).flush t = true) :
    (dat1 V c).flushed 2 t = ((cfg1.win 2).blk t).view.read (Elt Ideal) (G0 V c) := by
  show (cfg1.win 2).cut (grid1.coords t) ((dat1 V c).after 2 t) = _
  rw [after1_2, out2_eq]
  funext j
  obtain ⟨r, d, rfl⟩ : ∃ (r : Fin 2000) (d : Fin 256), j = ix2 r d := ⟨j 0, j 1, eq_ix2 j⟩
  show k1_pay5 (F := Ideal) (xblk V c t) (hblk V c t) (ix2 r d) = G0 V c (((cfg1.win 2).blk t).view.emb (ix2 r d))
  rw [tile0_apply]
  congr 1
  funext a
  apply Fin.ext
  match a with
  | ⟨0, _⟩ => show t.val * 2000 + r.val = win1_2.index t 0 * 2000 + 1 * r.val; rw [(idx_facts2 t).1]; omega
  | ⟨1, _⟩ => show d.val = win1_2.index t 1 * 256 + 1 * d.val; rw [(idx_facts2 t).2]; omega

/-- An index of the array is in point t's block of head 0's re-weighed rows iff each coordinate is in the block's range. -/
theorem mem_blk2 (t : Fin cfg1.N) (i : S200000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v12_0).slice (win1_2.rect t)).set ↔ _
  rw [View.set_slice_whole, Rect.mem_set_unit]
  exact Iff.rfl

/-- Head 0's re-weighed rows. -/
theorem xi0_eq (c : Dev nD) :
    ((dat1 (F := Ideal) V c).arrAt 2 cfg1.N : FVec Ideal S200000x256 .f32)
      = Cert.Spec.reweigh (V c main_arg0 : FVec Ideal S200000x256 .f32) (Cert.Spec.rowOf (V c main_v11 : FVec Ideal S2x256 .f32) 0) :=
  (dat1 V c).arrAt_eq_of_cover 2 (G0 V c) (flushed2_eq V c) fun i => by
    have hi0 : (i 0).val < 200000 := (i 0).isLt
    have hi1 : (i 1).val < 256 := (i 1).isLt
    have hN : cfg1.N = 100 := N_1
    refine ⟨⟨(i 0).val / 2000, by rw [hN]; omega⟩, flush1_2 _, ?_⟩
    rw [mem_blk2]
    intro a
    match a with
    | ⟨0, _⟩ =>
      show win1_2.index ⟨(i 0).val / 2000, _⟩ 0 * 2000 ≤ (i 0).val ∧ (i 0).val < win1_2.index ⟨(i 0).val / 2000, _⟩ 0 * 2000 + 2000
      rw [(idx_facts2 _).1]
      dsimp only
      omega
    | ⟨1, _⟩ =>
      show win1_2.index ⟨(i 0).val / 2000, _⟩ 1 * 256 ≤ (i 1).val ∧ (i 1).val < win1_2.index ⟨(i 0).val / 2000, _⟩ 1 * 256 + 256
      rw [(idx_facts2 _).2]
      omega

/-! ## Head 0: the running row -/

/-- The column sums of tile n of the re-weighed data, at column d. -/
abbrev tileSum0 (c : Dev nD) (d : Fin 256) (n : ℕ) (h : n < cfg1.N) : EReal :=
  ∑ r : Fin 2000, G0 V c (ix2 ⟨n * 2000 + r.val, row_lt ⟨n, h⟩ r⟩ d)

/-- After point n head 0's running row holds the column sums of the tiles 0 … n of the re-weighed data: it is reset to
    zero and given tile 0's sums at point 0, and given tile n + 1's sums at point n + 1. -/
theorem acc0_eq (c : Dev nD) (u : Fin 1) (d : Fin 256) : ∀ (n : ℕ) (h : n < cfg1.N),
    (outsAt1 V c n h).2.2.1 (ix2 u d) = 0 + ∑ t : Fin (n + 1), tileSum0 V c d t.val (lt_of_lt_of_le t.isLt h) := by
  have hN : cfg1.N = 100 := N_1
  refine Cert.TiledSum.running_total cfg1.N (fun n h => (outsAt1 V c n h).2.2.1 (ix2 u d)) 0 (tileSum0 V c d) ?_ ?_
  · intro h
    show (outsAt1 V c (⟨0, h⟩ : Fin cfg1.N).val (⟨0, h⟩ : Fin cfg1.N).isLt).2.2.1 (ix2 u d) = _
    rw [outsAt1_A V c ⟨0, h⟩ rfl]
    dsimp only
    refine (congrFun (Pieces1.out1_A_4_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr rfl)
      (xblk V c ⟨0, h⟩) (hblk V c ⟨0, h⟩)) (ix2 u d)).trans ?_
    rw [Tile.k1_pay6_apply, Tile.k1_pay2_apply]
    exact congrArg (0 + ·) (Finset.sum_congr rfl fun r _ => tile0_apply V c ⟨0, h⟩ r d)
  · intro n h
    have hB : ¬(⟨n + 1, h⟩ : Fin cfg1.N).val % 100 = 0 := by dsimp only; omega
    show (outsAt1 V c (⟨n + 1, h⟩ : Fin cfg1.N).val (⟨n + 1, h⟩ : Fin cfg1.N).isLt).2.2.1 (ix2 u d) = _
    rw [outsAt1_B V c ⟨n + 1, h⟩ hB]
    dsimp only
    refine (congrFun (Pieces1.out1_B_4_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hc => hB ((hcond1_0 ⟨n + 1, h⟩).mp hc))
      (xblk V c ⟨n + 1, h⟩) (hblk V c ⟨n + 1, h⟩)
      (outsAt1 V c ((⟨n + 1, h⟩ : Fin cfg1.N).val - 1) (Nat.lt_of_le_of_lt (Nat.sub_le _ _) (⟨n + 1, h⟩ : Fin cfg1.N).isLt)).2.2.1
      (outsAt1 V c ((⟨n + 1, h⟩ : Fin cfg1.N).val - 1) (Nat.lt_of_le_of_lt (Nat.sub_le _ _) (⟨n + 1, h⟩ : Fin cfg1.N).isLt)).2.2.2)
      (ix2 u d)).trans ?_
    rw [Tile.k1_pay6_apply]
    exact congrArg ((outsAt1 V c n (Nat.lt_of_succ_lt h)).2.2.1 (ix2 u d) + ·)
      (Finset.sum_congr rfl fun r _ => tile0_apply V c ⟨n + 1, h⟩ r d)

/-- The index map of head 0's running row over the grid: always block (0, 0). -/
theorem idx_facts4 : ∀ t : Fin cfg1.N, win1_4.index t 0 = 0 ∧ win1_4.index t 1 = 0 :=
  (by decide +kernel : ∀ t : Fin grid1.N, win1_4.index t 0 = 0 ∧ win1_4.index t 1 = 0)

/-- The column sums of all 100 tiles of 2000 rows together are the column sums of the re-weighed data. -/
theorem tiles0_total (c : Dev nD) (d : Fin 256) (n : ℕ) (hn : n < cfg1.N) (e : n = 99) :
    ∑ t : Fin (n + 1), tileSum0 V c d t.val (lt_of_lt_of_le t.isLt hn) = ∑ m : Fin 200000, G0 V c (ix2 m d) := by
  subst e
  exact Cert.Spec.sum_rows_tiles 100 2000 rfl (fun m => G0 V c (ix2 m d))

/-- After the last point head 0's running row is the column sums of the re-weighed data. -/
theorem acc0_last (c : Dev nD) (t : Fin cfg1.N) (h99 : t.val = 99) :
    (outsAt1 V c t.val t.isLt).2.2.1 = Cert.Spec.colSum (G0 V c) := by
  funext j
  obtain ⟨u, d, rfl⟩ : ∃ (u : Fin 1) (d : Fin 256), j = ix2 u d := ⟨j 0, j 1, eq_ix2 j⟩
  rw [acc0_eq V c u d t.val t.isLt, zero_add, tiles0_total V c d t.val t.isLt h99, Cert.Spec.colSum_apply]

/-- The one write-back of head 0's running row, after the last point, writes the column sums of the re-weighed data:
    block (0, 0) of the 1 × 256 row is the row. -/
theorem flushed4_eq (c : Dev nD) (t : Fin cfg1.N) (hf : (cfg1.win 4).flush t = true) :
    (dat1 V c).flushed 4 t = ((cfg1.win 4).blk t).view.read (Elt Ideal) (Cert.Spec.colSum (G0 V c)) := by
  have hN : cfg1.N = 100 := N_1
  have h99 : t.val = 99 := by have := (flush1_4 t).mp hf; have := t.isLt; omega
  show (cfg1.win 4).cut (grid1.coords t) ((dat1 V c).after 4 t) = _
  rw [after1_4, acc0_last V c t h99]
  have hz' : (fun a => win1_4.index t a * main_v12_2.ty.shape.size a) = fun _ => 0 := funext fun a => by
    match a with
    | ⟨0, _⟩ => show win1_4.index t 0 * 1 = 0; rw [(idx_facts4 t).1]
    | ⟨1, _⟩ => show win1_4.index t 1 * 256 = 0; rw [(idx_facts4 t).2]
  exact (Memref.read_access_unit_zero (Elt Ideal) main_v12_2 hz' (fun a => by rw [congrFun hz' a]; simp)
    (Cert.Spec.colSum (G0 V c))).symm

/-- An index of the row is in point t's block of head 0's running row iff each coordinate is in the block's range. -/
theorem mem_blk4 (t : Fin cfg1.N) (i : S1x256.Idx) :
    i ∈ ((cfg1.win 4).blk t).view.set ↔ ∀ a : Fin 2, win1_4.index t a * S1x256.size a ≤ (i a).val
      ∧ (i a).val < win1_4.index t a * S1x256.size a + S1x256.size a := by
  show i ∈ ((View.whole main_v12_2).slice (win1_4.rect t)).set ↔ _
  rw [View.set_slice_whole, Rect.mem_set_unit]
  exact Iff.rfl

/-- The column sums of head 0's re-weighed rows. -/
theorem sum0_eq (c : Dev nD) :
    ((dat1 (F := Ideal) V c).arrAt 4 cfg1.N : FVec Ideal S1x256 .f32)
      = Cert.Spec.colSum (Cert.Spec.reweigh (V c main_arg0 : FVec Ideal S200000x256 .f32) (Cert.Spec.rowOf (V c main_v11 : FVec Ideal S2x256 .f32) 0)) :=
  (dat1 V c).arrAt_eq_of_cover 4 (Cert.Spec.colSum (G0 V c)) (flushed4_eq V c) fun i => by
    have hi0 : (i 0).val < 1 := (i 0).isLt
    have hi1 : (i 1).val < 256 := (i 1).isLt
    have hN : cfg1.N = 100 := N_1
    refine ⟨⟨99, by rw [hN]; omega⟩, (flush1_4 _).mpr rfl, ?_⟩
    rw [mem_blk4]
    intro a
    match a with
    | ⟨0, _⟩ =>
      show win1_4.index ⟨99, _⟩ 0 * 1 ≤ (i 0).val ∧ (i 0).val < win1_4.index ⟨99, _⟩ 0 * 1 + 1
      rw [(idx_facts4 _).1]
      omega
    | ⟨1, _⟩ =>
      show win1_4.index ⟨99, _⟩ 1 * 256 ≤ (i 1).val ∧ (i 1).val < win1_4.index ⟨99, _⟩ 1 * 256 + 256
      rw [(idx_facts4 _).2]
      omega

end Cert.KernelIdeal.Region1

end
-- ==== Proof.Pieces2.lean ====
/-
  REGION 2 (the second round, 100 tiles of 2000 rows, both heads): what each case of the body leaves in the two pooled rows.
  Each case of the body leaves, in an output's staging buffer, the value of that output's last covering store; a store's
  value is a pure function of the body's loads, and a load of a buffer the same run has already stored reads the stored
  value back. The lemmas below state, for every output and both cases (the first grid point, which resets the running
  rows, and every later point), which pure function of the input blocks and of the running rows that is. They hold for any float values.
-/
import proofs.«135677_j5583457485032_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces2

open Cert.KernelIdeal Cert.KernelIdeal.Gen

variable {F : FTy → Type} [FloatOps F]

/-- The literal offsets of a whole-block access are the zero offsets. -/
theorem hz : (![0, 0] : Fin 2 → Nat) = fun _ => 0 := funext fun a => by fin_cases a <;> rfl

/-- Head 0's pooled row: reset to zeros, then the tile's gated rows added (first point). -/
theorem out2_A_3_eq (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (hc0 : cond2_0 i) (x0 : Vec F S2000x256 .f32) (x1 : Vec F S2000x256 .f32) (x2 : Vec F S2x256 .f32) :
    out2_A_3 c i arg1 harg1 arg2 harg2 arg3 harg3 arg4 harg4 arg5 harg5 hc0 x0 x1 x2 = k2_pay6 x0 x2 (k2_pay2 (F := F)) := by
  -- the buffer's contents are the canonical reading of the case's pieces, which cover the block
  unfold out2_A_3
  rw [View.read_writes_eq_canon _ _ _ (cover2_A_3 c i arg1 harg1 arg2 harg2 arg3 harg3 arg4 harg4 arg5 harg5 hc0 x0 x1 x2)]
  unfold kernelRun2_A
  dsimp only
  sl_unfold_words
  -- two whole-block stores: the update, stored last, decides; its running-row operand is the load that reads the
  -- reset's zeros back
  rw [View.canon_cons_unit_zero (S := S1x256) hz, View.readCov_unit_zero (S := S1x256) _ hz]
  -- the tile and the two directions are loaded whole
  simp only [View.readAt_eq_ld, harg1.read_unread, harg3.read_unread, View.ld_unit_zero (S := S2000x256) hz,
    View.ld_unit_zero (S := S2x256) hz]

/-- Head 1's pooled row: reset to zeros, then the tile's gated rows added (first point). -/
theorem out2_A_4_eq (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (hc0 : cond2_0 i) (x0 : Vec F S2000x256 .f32) (x1 : Vec F S2000x256 .f32) (x2 : Vec F S2x256 .f32) :
    out2_A_4 c i arg1 harg1 arg2 harg2 arg3 harg3 arg4 harg4 arg5 harg5 hc0 x0 x1 x2 = k2_pay1 (k2_pay4 x1) (k2_pay7 x1 x2) (k2_pay3 (F := F)) := by
  unfold out2_A_4
  rw [View.read_writes_eq_canon _ _ _ (cover2_A_4 c i arg1 harg1 arg2 harg2 arg3 harg3 arg4 harg4 arg5 harg5 hc0 x0 x1 x2)]
  unfold kernelRun2_A
  dsimp only
  sl_unfold_words
  -- as for head 0: the update decides, and reads the reset's zeros back
  rw [View.canon_cons_unit_zero (S := S1x256) hz, View.readCov_unit_zero (S := S1x256) _ hz]
  -- the re-weighed tile and the two directions are loaded whole
  simp only [View.readAt_eq_ld, harg2.read_unread, harg3.read_unread, View.ld_unit_zero (S := S2000x256) hz,
    View.ld_unit_zero (S := S2x256) hz]

/-- Head 0's pooled row `xo3` plus the tile's gated rows (a later point). -/
theorem out2_B_3_eq (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (hc0 : ¬cond2_0 i) (x0 : Vec F S2000x256 .f32) (x1 : Vec F S2000x256 .f32) (x2 : Vec F S2x256 .f32) (xo3 : Vec F S1x256 .f32) (xo4 : Vec F S1x256 .f32) :
    out2_B_3 c i arg1 harg1 arg2 harg2 arg3 harg3 arg4 harg4 arg5 harg5 hc0 x0 x1 x2 xo3 xo4 = k2_pay6 x0 x2 xo3 := by
  -- one whole-block store, the update, covers the block
  unfold out2_B_3
  rw [View.read_writes_eq_canon _ _ _ (cover2_B_3 c i arg1 harg1 arg2 harg2 arg3 harg3 arg4 harg4 arg5 harg5 hc0 x0 x1 x2 xo3 xo4)]
  unfold kernelRun2_B
  dsimp only
  sl_unfold_words
  rw [View.canon_unit_zero (S := S1x256) hz]
  -- its operands are whole-block loads: the tile, the two directions, the running row
  simp only [View.readAt_eq_ld, harg1.read_unread, harg3.read_unread, harg4.read_unread,
    View.ld_unit_zero (S := S2000x256) hz, View.ld_unit_zero (S := S2x256) hz, View.ld_unit_zero (S := S1x256) hz]

/-- Head 1's pooled row `xo4` plus the tile's gated rows (a later point). -/
theorem out2_B_4_eq (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (hc0 : ¬cond2_0 i) (x0 : Vec F S2000x256 .f32) (x1 : Vec F S2000x256 .f32) (x2 : Vec F S2x256 .f32) (xo3 : Vec F S1x256 .f32) (xo4 : Vec F S1x256 .f32) :
    out2_B_4 c i arg1 harg1 arg2 harg2 arg3 harg3 arg4 harg4 arg5 harg5 hc0 x0 x1 x2 xo3 xo4 = k2_pay1 (k2_pay4 x1) (k2_pay7 x1 x2) xo4 := by
  unfold out2_B_4
  rw [View.read_writes_eq_canon _ _ _ (cover2_B_4 c i arg1 harg1 arg2 harg2 arg3 harg3 arg4 harg4 arg5 harg5 hc0 x0 x1 x2 xo3 xo4)]
  unfold kernelRun2_B
  dsimp only
  sl_unfold_words
  rw [View.canon_unit_zero (S := S1x256) hz]
  -- its operands are whole-block loads: the re-weighed tile, the two directions, the running row
  simp only [View.readAt_eq_ld, harg2.read_unread, harg3.read_unread, harg5.read_unread,
    View.ld_unit_zero (S := S2000x256) hz, View.ld_unit_zero (S := S2x256) hz, View.ld_unit_zero (S := S1x256) hz]

end Cert.KernelIdeal.Pieces2

end
-- ==== Proof.Region2.lean ====
/-
  REGION 2 read as values, head 0: the second round over the 100 tiles of 2000 rows.

  Per tile the body adds, to the head's running row (reset at tile 0), the tile's gated rows ∑ r, gate (score r) * x (r, d),
  the rows being the head's re-weighed rows and the score taken against the head's row of the direction pair. The
  running row's block never moves, so the one write-back, after the last tile, leaves the head's pool over all rows.
-/
import proofs.«135677_j5583457485032_1_alg».proof.Proof.Gen.KernelIdeal.Frame
import proofs.«135677_j5583457485032_1_alg».proof.Proof.Pieces2
import proofs.«135677_j5583457485032_1_alg».proof.Proof.Tile
import proofs.«135677_j5583457485032_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

-- the TensorCore's buffer contents when the region is entered
variable (V : (c : Dev nD) → (b : Ref sig .tc) → Buf (Elt Ideal) ((c : Thread nD τ).loc b))

/-! ## The arrays the region is entered with, and the blocks the body is handed -/

/-- Head 0's rows and the direction pair, as the region finds them. -/
abbrev rows0 (c : Dev nD) : FVec Ideal S200000x256 .f32 := V c main_v12_0
abbrev dirs (c : Dev nD) : FVec Ideal S2x256 .f32 := V c main_v25

/-- Tile t of head 0's rows, and the direction pair's one block. -/
abbrev tile0 (c : Dev nD) (t : Fin cfg2.N) : Vec Ideal S2000x256 .f32 := iblk2 V c 0 t
abbrev dblk (c : Dev nD) (t : Fin cfg2.N) : Vec Ideal S2x256 .f32 := iblk2 V c 2 t

/-- The block indices: a rows window's block t is at (t, 0), the direction pair's at (0, 0). -/
theorem index0 : ∀ t : Fin cfg2.N, win2_0.index t 0 = t.val ∧ win2_0.index t 1 = 0 :=
  (by decide +kernel : ∀ t : Fin grid2.N, win2_0.index t 0 = t.val ∧ win2_0.index t 1 = 0)

theorem index2 : ∀ t : Fin cfg2.N, win2_2.index t 0 = 0 ∧ win2_2.index t 1 = 0 :=
  (by decide +kernel : ∀ t : Fin grid2.N, win2_2.index t 0 = 0 ∧ win2_2.index t 1 = 0)

/-- Row r of tile t is a row of the data. -/
theorem row_lt (t : Fin cfg2.N) (r : Fin 2000) : t.val * 2000 + r.val < 200000 := by
  have hN : cfg2.N = 100 := N_2
  have h1 := t.isLt
  have h2 := r.isLt
  omega

/-- Tile t of head 0's rows holds the rows t * 2000 … t * 2000 + 1999. -/
theorem tile0_apply (c : Dev nD) (t : Fin cfg2.N) (r : Fin 2000) (d : Fin 256) :
    tile0 V c t (ix2 r d) = rows0 V c (ix2 ⟨t.val * 2000 + r.val, row_lt t r⟩ d) := by
  show iblk2 V c 0 t (ix2 r d) = V c main_v12_0 _
  unfold iblk2
  rw [View.read_apply]
  show V c main_v12_0 _ = V c main_v12_0 _
  congr 1
  funext a
  apply Fin.ext
  match a with
  | ⟨0, _⟩ => show win2_0.index t 0 * 2000 + 1 * r.val = t.val * 2000 + r.val; rw [(index0 t).1]; omega
  | ⟨1, _⟩ => show win2_0.index t 1 * 256 + 1 * d.val = d.val; rw [(index0 t).2]; omega

/-- The direction pair's block is the pair. -/
theorem dblk_apply (c : Dev nD) (t : Fin cfg2.N) (a : Fin 2) (k : Fin 256) :
    dblk V c t (ix2 a k) = dirs V c (ix2 a k) := by
  show iblk2 V c 2 t (ix2 a k) = V c main_v25 _
  unfold iblk2
  rw [View.read_apply]
  show V c main_v25 _ = V c main_v25 _
  congr 1
  funext b
  apply Fin.ext
  match b with
  | ⟨0, _⟩ => show win2_2.index t 0 * 2 + 1 * a.val = a.val; rw [(index2 t).1]; omega
  | ⟨1, _⟩ => show win2_2.index t 1 * 256 + 1 * k.val = k.val; rw [(index2 t).2]; omega

/-! ## Head 0's running row -/

/-- The gated rows of tile n of head 0, summed down column d. -/
def part0 (c : Dev nD) (d : Fin 256) (n : ℕ) (hn : n < cfg2.N) : EReal :=
  ∑ r : Fin 2000,
    Cert.Spec.gate (Cert.Spec.score (rows0 V c) (Cert.Spec.rowOf (dirs V c) 0) ⟨n * 2000 + r.val, row_lt ⟨n, hn⟩ r⟩)
      * rows0 V c (ix2 ⟨n * 2000 + r.val, row_lt ⟨n, hn⟩ r⟩ d)

/-- A row's score inside tile t, against row 0 of the direction pair's block, is the row's score in the data. -/
theorem score0_blk (c : Dev nD) (t : Fin cfg2.N) (r : Fin 2000) :
    (∑ k : Fin 256, tile0 V c t (ix2 r k) * dblk V c t (ix2 (0 : Fin 2) k))
      = Cert.Spec.score (rows0 V c) (Cert.Spec.rowOf (dirs V c) 0) ⟨t.val * 2000 + r.val, row_lt t r⟩ := by
  unfold Cert.Spec.score
  refine Finset.sum_congr rfl fun k _ => ?_
  rw [tile0_apply V c t r k, dblk_apply V c t 0 k, Cert.Spec.rowOf_apply]

/-- The body's update of head 0's running row at point t: the tile's gated rows added. -/
theorem step0 (c : Dev nD) (t : Fin cfg2.N) (acc : Vec Ideal S1x256 .f32) (u : Fin 1) (d : Fin 256) :
    k2_pay6 (F := Ideal) (tile0 V c t) (dblk V c t) acc (ix2 u d) = acc (ix2 u d) + part0 V c d t.val t.isLt := by
  rw [Tile.k2_pay6_apply (tile0 V c t) (dblk V c t) acc u d]
  unfold part0
  refine congrArg (fun z => acc (ix2 u d) + z) (Finset.sum_congr rfl fun r _ => ?_)
  rw [score0_blk V c t r, tile0_apply V c t r d]

/-- Head 0's running row after point 0: the first tile's gated rows over zeros. -/
theorem run0_zero (c : Dev nD) (h : 0 < cfg2.N) (u : Fin 1) (d : Fin 256) :
    (outsAt2 V c 0 h).1 (ix2 u d) = 0 + part0 V c d 0 h := by
  rw [outsAt2_A V c ⟨0, h⟩ rfl]
  dsimp only
  rw [Pieces2.out2_A_3_eq (F := Ideal) c (grid2.coords ⟨0, h⟩) (ms2_0 ⟨0, h⟩) (hs2_0 ⟨0, h⟩) (ms2_1 ⟨0, h⟩) (hs2_1 ⟨0, h⟩)
    (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl)
    (iblk2 V c 0 ⟨0, h⟩) (iblk2 V c 1 ⟨0, h⟩) (iblk2 V c 2 ⟨0, h⟩)]
  rw [step0 V c ⟨0, h⟩ (k2_pay2 (F := Ideal)) u d, Tile.k2_pay2_apply]

/-- Head 0's running row after a later point: the tile's gated rows added to what the point before left. -/
theorem run0_succ (c : Dev nD) (n : ℕ) (h : n + 1 < cfg2.N) (u : Fin 1) (d : Fin 256) :
    (outsAt2 V c (n + 1) h).1 (ix2 u d) = (outsAt2 V c n (Nat.lt_of_succ_lt h)).1 (ix2 u d) + part0 V c d (n + 1) h := by
  have hN : cfg2.N = 100 := N_2
  have hB : ¬(⟨n + 1, h⟩ : Fin cfg2.N).val % 100 = 0 := by dsimp only; omega
  rw [outsAt2_B V c ⟨n + 1, h⟩ hB]
  dsimp only
  rw [Pieces2.out2_B_3_eq (F := Ideal) c (grid2.coords ⟨n + 1, h⟩) (ms2_0 ⟨n + 1, h⟩) (hs2_0 ⟨n + 1, h⟩) (ms2_1 ⟨n + 1, h⟩) (hs2_1 ⟨n + 1, h⟩)
    (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩)
    (fun hc => hB ((hcond2_0 ⟨n + 1, h⟩).mp hc))
    (iblk2 V c 0 ⟨n + 1, h⟩) (iblk2 V c 1 ⟨n + 1, h⟩) (iblk2 V c 2 ⟨n + 1, h⟩)
    (outsAt2 V c (n + 1 - 1) (Nat.lt_of_le_of_lt (Nat.sub_le (n + 1) 1) h)).1
    (outsAt2 V c (n + 1 - 1) (Nat.lt_of_le_of_lt (Nat.sub_le (n + 1) 1) h)).2]
  show k2_pay6 (F := Ideal) (tile0 V c ⟨n + 1, h⟩) (dblk V c ⟨n + 1, h⟩) (outsAt2 V c n (Nat.lt_of_succ_lt h)).1 (ix2 u d) = _
  exact step0 V c ⟨n + 1, h⟩ (outsAt2 V c n (Nat.lt_of_succ_lt h)).1 u d

/-- Head 0's running row after point n: the gated rows of the tiles 0 … n, over zeros. -/
theorem run0_eq (c : Dev nD) (u : Fin 1) (d : Fin 256) (n : ℕ) (h : n < cfg2.N) :
    (outsAt2 V c n h).1 (ix2 u d) = 0 + ∑ t : Fin (n + 1), part0 V c d t.val (lt_of_lt_of_le t.isLt h) :=
  Cert.TiledSum.running_total cfg2.N (fun n h => (outsAt2 V c n h).1 (ix2 u d)) 0 (fun n h => part0 V c d n h)
    (fun h => run0_zero V c h u d) (fun n h => run0_succ V c n h u d) n h

/-- After the last point head 0's running row is the pool over all the rows: the 100 tiles of 2000 rows are the rows. -/
theorem last0_eq (c : Dev nD) (n : ℕ) (h : n < cfg2.N) (hn : n = 99) :
    (outsAt2 V c n h).1 = (Cert.Spec.pooled (rows0 V c) (Cert.Spec.rowOf (dirs V c) 0) : FVec Ideal S1x256 .f32) := by
  funext j
  obtain ⟨u, d, rfl⟩ : ∃ (u : Fin 1) (d : Fin 256), j = ix2 u d := ⟨j 0, j 1, eq_ix2 j⟩
  rw [run0_eq V c u d n h, zero_add, Cert.Spec.pooled_apply]
  subst hn
  refine Eq.trans ?_ (Cert.Spec.sum_rows_tiles 100 2000 rfl
    (fun n => Cert.Spec.gate (Cert.Spec.score (rows0 V c) (Cert.Spec.rowOf (dirs V c) 0) n) * rows0 V c (ix2 n d)))
  exact Finset.sum_congr rfl fun t _ => rfl

/-! ## The write-back -/

/-- The running row's block never moves: it is at (0, 0) at every point. -/
theorem index3 : ∀ t : Fin cfg2.N, win2_3.index t 0 = 0 ∧ win2_3.index t 1 = 0 :=
  (by decide +kernel : ∀ t : Fin grid2.N, win2_3.index t 0 = 0 ∧ win2_3.index t 1 = 0)

/-- The one write-back of head 0's running row, after the last point, writes the pool; the row's block is the array. -/
theorem flushed0_eq (c : Dev nD) (t : Fin cfg2.N) (hf : (cfg2.win 3).flush t = true) :
    (dat2 V c).flushed 3 t = ((cfg2.win 3).blk t).view.read (Elt Ideal)
      (Cert.Spec.pooled (rows0 V c) (Cert.Spec.rowOf (dirs V c) 0) : FVec Ideal S1x256 .f32) := by
  have hN : cfg2.N = 100 := N_2
  have h99 : t.val = 99 := by have := (flush2_3 t).mp hf; have := t.isLt; omega
  show (cfg2.win 3).cut (grid2.coords t) ((dat2 V c).after 3 t) = _
  rw [after2_3, last0_eq V c t.val t.isLt h99]
  have hz' : (fun a => win2_3.index t a * main_v26_0.ty.shape.size a) = fun _ => 0 := funext fun a => by
    match a with
    | ⟨0, _⟩ => show win2_3.index t 0 * 1 = 0; rw [(index3 t).1]
    | ⟨1, _⟩ => show win2_3.index t 1 * 256 = 0; rw [(index3 t).2]
  exact (Memref.read_access_unit_zero (Elt Ideal) main_v26_0 hz' (fun a => by rw [congrFun hz' a]; simp)
    (Cert.Spec.pooled (rows0 V c) (Cert.Spec.rowOf (dirs V c) 0) : FVec Ideal S1x256 .f32)).symm

/-- The last point. -/
abbrev tLast : Fin cfg2.N := ⟨99, by rw [show cfg2.N = 100 from N_2]; decide⟩

/-- Head 0's pool. -/
theorem out0_eq (c : Dev nD) :
    ((dat2 (F := Ideal) V c).arrAt 3 cfg2.N : FVec Ideal S1x256 .f32)
      = Cert.Spec.pooled (V c main_v12_0 : FVec Ideal S200000x256 .f32) (Cert.Spec.rowOf (V c main_v25 : FVec Ideal S2x256 .f32) 0) :=
  (dat2 V c).arrAt_eq_of_cover 3 (Cert.Spec.pooled (rows0 V c) (Cert.Spec.rowOf (dirs V c) 0) : FVec Ideal S1x256 .f32)
    (flushed0_eq V c) fun i =>
    ⟨tLast, (flush2_3 tLast).mpr rfl, by
      show i ∈ ((View.whole main_v26_0).slice (win2_3.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win2_3.index tLast 0 * win2_3.size 0 ≤ (i 0 : Nat)
          ∧ (i 0 : Nat) < win2_3.index tLast 0 * win2_3.size 0 + win2_3.xsize (grid2.coords tLast) 0
        rw [(index3 tLast).1, show win2_3.xsize (grid2.coords tLast) 0 = 1 from by decide +kernel]; omega
      | ⟨1, _⟩ =>
        show win2_3.index tLast 1 * win2_3.size 1 ≤ (i 1 : Nat)
          ∧ (i 1 : Nat) < win2_3.index tLast 1 * win2_3.size 1 + win2_3.xsize (grid2.coords tLast) 1
        rw [(index3 tLast).2, show win2_3.xsize (grid2.coords tLast) 1 = 256 from by decide +kernel]; omega⟩

end Cert.KernelIdeal.Region2

end
-- ==== Proof.Region1b.lean ====
/-
  REGION 1 read as values, head 1: the first round over the 100 tiles of 2000 rows.

  Per tile the body stores head 1's re-weighed tile, x (r, d) * gate (score r), the score taken against row 1 of the
  direction pair, and adds the tile's column sums to head 1's running row (reset at tile 0). The re-weighed tile is
  written back at every tile, to the rows the tile was read from, so the result array is the data re-weighed row by
  row; the running row's block never moves, so it ends at the column sums of the re-weighed data.
-/
import proofs.«135677_j5583457485032_1_alg».proof.Proof.Gen.KernelIdeal.Frame
import proofs.«135677_j5583457485032_1_alg».proof.Proof.Pieces1
import proofs.«135677_j5583457485032_1_alg».proof.Proof.Tile
import proofs.«135677_j5583457485032_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1b

open Cert.KernelIdeal Cert.KernelIdeal.Gen

-- the TensorCore's buffer contents when the region is entered
variable (V : (c : Dev nD) → (b : Ref sig .tc) → Buf (Elt Ideal) ((c : Thread nD τ).loc b))

/-- The data the region is entered with, and the pair of directions. -/
abbrev xarr (c : Dev nD) : FVec Ideal S200000x256 .f32 := V c main_arg0
abbrev harr (c : Dev nD) : FVec Ideal S2x256 .f32 := V c main_v11

/-- The tile of the data, and the block of the directions, that the body reads at point t. -/
abbrev xblk (c : Dev nD) (t : Fin cfg1.N) : Vec Ideal S2000x256 .f32 := iblk1 V c 0 t
abbrev hblk (c : Dev nD) (t : Fin cfg1.N) : Vec Ideal S2x256 .f32 := iblk1 V c 1 t

/-- Head 1's re-weighed rows, as one function of the data and of the directions. -/
abbrev G (c : Dev nD) : FVec Ideal S200000x256 .f32 :=
  Cert.Spec.reweigh (xarr V c) (Cert.Spec.rowOf (harr V c) 1)

/-- The block indices of the windows at point t: the tiles of the data and of head 1's rows move with the point, the
    directions and the running row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0
    ∧ win1_5.index t (0 : Fin 2) = 0 ∧ win1_5.index t (1 : Fin 2) = 0 :=
  (by decide +kernel : ∀ t : Fin grid1.N, _)

/-- There are 100 points. -/
theorem lt_100 (t : Fin cfg1.N) : t.val < 100 := lt_of_lt_of_eq t.isLt (show cfg1.N = 100 from N_1)

/-- Row r of tile t is a row of the data. -/
theorem row_lt (t : Fin cfg1.N) (r : Fin 2000) : t.val * 2000 + r.val < 200000 := by
  have := lt_100 t; have := r.isLt; omega

/-- The tile read at point t holds the rows t * 2000 … t * 2000 + 1999 of the data. -/
theorem xblk_apply (c : Dev nD) (t : Fin cfg1.N) (r : Fin 2000) (d : Fin 256) :
    xblk V c t (ix2 r d) = xarr V c (ix2 ⟨t.val * 2000 + r.val, row_lt t r⟩ d) := by
  obtain ⟨e0, e1, -⟩ := idx_facts t
  unfold xblk iblk1
  rw [View.read_apply]
  show V c main_arg0 _ = V c main_arg0 _
  congr 1
  funext a
  apply Fin.ext
  match a with
  | ⟨0, _⟩ => show win1_0.index t (0 : Fin 2) * 2000 + 1 * r.val = t.val * 2000 + r.val; rw [e0]; omega
  | ⟨1, _⟩ => show win1_0.index t (1 : Fin 2) * 256 + 1 * d.val = d.val; rw [e1]; omega

/-- The block of the directions is the whole pair, at every point. -/
theorem hblk_apply (c : Dev nD) (t : Fin cfg1.N) (a : Fin 2) (k : Fin 256) :
    hblk V c t (ix2 a k) = harr V c (ix2 a k) := by
  obtain ⟨-, -, e0, e1, -⟩ := idx_facts t
  unfold hblk iblk1
  rw [View.read_apply]
  show V c main_v11 _ = V c main_v11 _
  congr 1
  funext b
  apply Fin.ext
  match b with
  | ⟨0, _⟩ => show win1_1.index t (0 : Fin 2) * 2 + 1 * a.val = a.val; rw [e0]; omega
  | ⟨1, _⟩ => show win1_1.index t (1 : Fin 2) * 256 + 1 * k.val = k.val; rw [e1]; omega

/-- What the body leaves in head 1's tile buffer at ANY point is head 1's re-weighed tile of the point's blocks. -/
theorem tile_eq (c : Dev nD) (t : Fin cfg1.N) :
    (outsAt1 V c t.val t.isLt).2.1 = k1_pay7 (F := Ideal) (xblk V c t) (hblk V c t) := by
  by_cases h0 : t.val % 100 = 0
  · rw [outsAt1_A V c t h0]
    dsimp only
    exact Pieces1.out1_A_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t)
  · rw [outsAt1_B V c t h0]
    dsimp only
    exact Pieces1.out1_B_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t)
      (outsAt1 V c (t.val - 1) (Nat.lt_of_le_of_lt (Nat.sub_le _ _) t.isLt)).2.2.1 (outsAt1 V c (t.val - 1) (Nat.lt_of_le_of_lt (Nat.sub_le _ _) t.isLt)).2.2.2

/-- Head 1's re-weighed tile of the point's blocks, at (r, d), is head 1's re-weighed data at row t * 2000 + r. -/
theorem pay_apply (c : Dev nD) (t : Fin cfg1.N) (r : Fin 2000) (d : Fin 256) :
    k1_pay7 (F := Ideal) (xblk V c t) (hblk V c t) (ix2 r d) = G V c (ix2 ⟨t.val * 2000 + r.val, row_lt t r⟩ d) := by
  unfold G
  rw [Tile.k1_pay7_apply, Cert.Spec.reweigh_apply, xblk_apply]
  refine congrArg (fun s => xarr V c (ix2 ⟨t.val * 2000 + r.val, row_lt t r⟩ d) * Cert.Spec.gate s) ?_
  refine Finset.sum_congr rfl fun k _ => ?_
  rw [xblk_apply, hblk_apply]
  rfl

/-- WHAT POINT t WRITES BACK to head 1's rows is block t of the re-weighed data. -/
theorem flushed3_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3, tile_eq]
  obtain ⟨-, -, -, -, e0, e1, -⟩ := idx_facts t
  funext j
  obtain ⟨r, d, rfl⟩ : ∃ (r : Fin 2000) (d : Fin 256), j = ix2 r d := ⟨j 0, j 1, eq_ix2 j⟩
  show k1_pay7 (F := Ideal) (xblk V c t) (hblk V c t) (ix2 r d) = G V c (((cfg1.win 3).blk t).view.emb (ix2 r d))
  rw [pay_apply]
  congr 1
  funext a
  apply Fin.ext
  match a with
  | ⟨0, _⟩ => show t.val * 2000 + r.val = win1_3.index t (0 : Fin 2) * 2000 + 1 * r.val; rw [e0]; omega
  | ⟨1, _⟩ => show d.val = win1_3.index t (1 : Fin 2) * 256 + 1 * d.val; rw [e1]; omega

/-- An index of head 1's rows is in point t's block iff each coordinate is in the block's range on its axis. -/
theorem mem_blk3 (t : Fin cfg1.N) (i : S200000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v12_1).slice (win1_3.rect t)).set ↔ _
  rw [View.set_slice_whole, Rect.mem_set_unit]
  exact Iff.rfl

/-- Every row lies in the block of the point its tile is read at. -/
theorem cover3 (i : S200000x256.Idx) : ∃ t : Fin cfg1.N, (cfg1.win 3).flush t = true ∧ i ∈ ((cfg1.win 3).blk t).view.set := by
  have hi0 : (i 0).val < 200000 := (i 0).isLt
  have hi1 : (i 1).val < 256 := (i 1).isLt
  have hN : cfg1.N = 100 := N_1
  refine ⟨⟨(i 0).val / 2000, by rw [hN]; omega⟩, flush1_3 _, ?_⟩
  rw [mem_blk3]
  obtain ⟨-, -, -, -, e0, e1, -⟩ := idx_facts ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e0]; dsimp only; omega
  | ⟨1, _⟩ =>
    show win1_3.index _ (1 : Fin 2) * 256 ≤ (i 1).val ∧ (i 1).val < win1_3.index _ (1 : Fin 2) * 256 + 256
    rw [e1]; omega

/-- Head 1's re-weighed rows. -/
theorem xi1_eq (c : Dev nD) :
    ((dat1 (F := Ideal) V c).arrAt 3 cfg1.N : FVec Ideal S200000x256 .f32)
      = Cert.Spec.reweigh (V c main_arg0 : FVec Ideal S200000x256 .f32) (Cert.Spec.rowOf (V c main_v11 : FVec Ideal S2x256 .f32) 1) := by
  exact (dat1 (F := Ideal) V c).arrAt_eq_of_cover 3 (G V c) (fun t _ => flushed3_eq V c t) cover3

/-- The column sums of tile n of the re-weighed data, at column d. -/
abbrev tileSum (c : Dev nD) (d : Fin 256) (n : ℕ) (hn : n < cfg1.N) : EReal :=
  ∑ r : Fin 2000, G V c (ix2 ⟨n * 2000 + r.val, row_lt ⟨n, hn⟩ r⟩ d)

/-- At the first point the running row is reset and then receives the tile's column sums. -/
theorem row_first (c : Dev nD) (t : Fin cfg1.N) (h0 : t.val % 100 = 0) (u : Fin 1) (d : Fin 256) :
    (outsAt1 V c t.val t.isLt).2.2.2 (ix2 u d) = 0 + tileSum V c d t.val t.isLt := by
  rw [outsAt1_A V c t h0]
  dsimp only
  refine (congrFun (Pieces1.out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t)) (ix2 u d)).trans ?_
  rw [Tile.k1_pay1_apply, Tile.k1_pay3_apply]
  refine congrArg (fun s : EReal => 0 + s) (Finset.sum_congr rfl fun r _ => ?_)
  exact pay_apply V c t r d

/-- At a later point the running row receives the tile's column sums on top of what the point before left. -/
theorem row_later (c : Dev nD) (t : Fin cfg1.N) (h0 : ¬t.val % 100 = 0) (u : Fin 1) (d : Fin 256) :
    (outsAt1 V c t.val t.isLt).2.2.2 (ix2 u d)
      = (outsAt1 V c (t.val - 1) (Nat.lt_of_le_of_lt (Nat.sub_le _ _) t.isLt)).2.2.2 (ix2 u d) + tileSum V c d t.val t.isLt := by
  rw [outsAt1_B V c t h0]
  dsimp only
  refine (congrFun (Pieces1.out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t)
    (outsAt1 V c (t.val - 1) (Nat.lt_of_le_of_lt (Nat.sub_le _ _) t.isLt)).2.2.1 (outsAt1 V c (t.val - 1) (Nat.lt_of_le_of_lt (Nat.sub_le _ _) t.isLt)).2.2.2) (ix2 u d)).trans ?_
  rw [Tile.k1_pay1_apply]
  refine congrArg (fun s : EReal => (outsAt1 V c (t.val - 1) (Nat.lt_of_le_of_lt (Nat.sub_le _ _) t.isLt)).2.2.2 (ix2 u d) + s) (Finset.sum_congr rfl fun r _ => ?_)
  exact pay_apply V c t r d

/-- After point n the running row holds the column sums of the tiles 0 … n of the re-weighed data. -/
theorem row_eq (c : Dev nD) (u : Fin 1) (d : Fin 256) : ∀ (n : ℕ) (hn : n < cfg1.N),
    ((outsAt1 V c n hn).2.2.2 (ix2 u d) : EReal) = 0 + ∑ t : Fin (n + 1), tileSum V c d t.val (lt_of_lt_of_le t.isLt hn) :=
  Cert.TiledSum.running_total (M := EReal) cfg1.N (fun n hn => (outsAt1 V c n hn).2.2.2 (ix2 u d)) 0 (tileSum V c d)
    (fun h => row_first V c ⟨0, h⟩ rfl u d)
    (fun n h => row_later V c ⟨n + 1, h⟩ (by have := lt_100 ⟨n + 1, h⟩; dsimp only at this ⊢; omega) u d)

/-- The column sums of the tiles 0 … 99 of the re-weighed data, added up, are its column sums. -/
theorem tiles_sum (c : Dev nD) (d : Fin 256) : ∀ (m : ℕ) (hm : m = 99) (hlt : m < cfg1.N),
    (∑ s : Fin (m + 1), tileSum V c d s.val (lt_of_lt_of_le s.isLt hlt)) = ∑ n : Fin 200000, G V c (ix2 n d) := by
  intro m hm hlt
  subst hm
  exact Cert.Spec.sum_rows_tiles 100 2000 rfl (fun n => G V c (ix2 n d))

/-- After the last point the running row holds the column sums of the re-weighed data. -/
theorem row_last (c : Dev nD) (t : Fin cfg1.N) (h99 : t.val = 99) (u : Fin 1) (d : Fin 256) :
    (outsAt1 V c t.val t.isLt).2.2.2 (ix2 u d) = Cert.Spec.colSum (G V c) (ix2 u d) := by
  rw [row_eq V c u d t.val t.isLt, zero_add, Cert.Spec.colSum_apply]
  exact tiles_sum V c d t.val h99 t.isLt

/-- As a row. -/
theorem row_fun (c : Dev nD) (t : Fin cfg1.N) (h99 : t.val = 99) :
    (outsAt1 V c t.val t.isLt).2.2.2 = (Cert.Spec.colSum (G V c) : Vec Ideal S1x256 .f32) := by
  funext j
  obtain ⟨u, d, rfl⟩ : ∃ (u : Fin 1) (d : Fin 256), j = ix2 u d := ⟨j 0, j 1, eq_ix2 j⟩
  exact row_last V c t h99 u d

/-- The one write-back of head 1's running row, after the last point, writes those column sums: the row's one block
    is the whole row. -/
theorem flushed5_eq (c : Dev nD) (t : Fin cfg1.N) (hf : (cfg1.win 5).flush t = true) :
    (dat1 (F := Ideal) V c).flushed 5 t = ((cfg1.win 5).blk t).view.read (Elt Ideal) (Cert.Spec.colSum (G V c)) := by
  have h99 : t.val = 99 := by have := (flush1_5 t).mp hf; have := lt_100 t; omega
  obtain ⟨-, -, -, -, -, -, e0, e1⟩ := idx_facts t
  show (cfg1.win 5).cut (grid1.coords t) ((dat1 (F := Ideal) V c).after 5 t) = _
  rw [after1_5, row_fun V c t h99]
  have hz' : (fun a => win1_5.index t a * main_v12_3.ty.shape.size a) = fun _ => 0 := funext fun a => by
    match a with
    | ⟨0, _⟩ => show win1_5.index t (0 : Fin 2) * 1 = 0; rw [e0]
    | ⟨1, _⟩ => show win1_5.index t (1 : Fin 2) * 256 = 0; rw [e1]
  exact (Memref.read_access_unit_zero (Elt Ideal) main_v12_3 hz' (fun a => by rw [congrFun hz' a]; simp) (Cert.Spec.colSum (G V c))).symm

/-- The last point's block covers the running row. -/
theorem cover5 (i : S1x256.Idx) : ∃ t : Fin cfg1.N, (cfg1.win 5).flush t = true ∧ i ∈ ((cfg1.win 5).blk t).view.set := by
  have h99 : 99 < cfg1.N := by rw [show cfg1.N = 100 from N_1]; omega
  have hi0 : (i 0).val < 1 := (i 0).isLt
  have hi1 : (i 1).val < 256 := (i 1).isLt
  refine ⟨⟨99, h99⟩, (flush1_5 _).mpr rfl, ?_⟩
  obtain ⟨-, -, -, -, -, -, e0, e1⟩ := idx_facts ⟨99, h99⟩
  show i ∈ ((View.whole main_v12_3).slice (win1_5.rect ⟨99, h99⟩)).set
  rw [View.set_slice_whole, Rect.mem_set_unit]
  intro a
  match a with
  | ⟨0, _⟩ =>
    show win1_5.index ⟨99, h99⟩ (0 : Fin 2) * 1 ≤ (i 0).val ∧ (i 0).val < win1_5.index ⟨99, h99⟩ (0 : Fin 2) * 1 + 1
    rw [e0]; omega
  | ⟨1, _⟩ =>
    show win1_5.index ⟨99, h99⟩ (1 : Fin 2) * 256 ≤ (i 1).val ∧ (i 1).val < win1_5.index ⟨99, h99⟩ (1 : Fin 2) * 256 + 256
    rw [e1]; omega

/-- The column sums of head 1's re-weighed rows. -/
theorem sum1_eq (c : Dev nD) :
    ((dat1 (F := Ideal) V c).arrAt 5 cfg1.N : FVec Ideal S1x256 .f32)
      = Cert.Spec.colSum (Cert.Spec.reweigh (V c main_arg0 : FVec Ideal S200000x256 .f32) (Cert.Spec.rowOf (V c main_v11 : FVec Ideal S2x256 .f32) 1)) := by
  exact (dat1 (F := Ideal) V c).arrAt_eq_of_cover 5 (Cert.Spec.colSum (G V c)) (flushed5_eq V c) cover5

end Cert.KernelIdeal.Region1b

end
-- ==== Proof.Region2b.lean ====
/-
  REGION 2 read as a value, head 1: the second round over the 100 tiles of 2000 rows.

  Per tile the body adds, to head 1's running row (reset at tile 0), the tile's gated rows ∑ r, gate (score r) * x (r, d),
  the rows being head 1's re-weighed rows and the score taken against row 1 of the direction pair. The running row's
  block never moves, so the one write-back, after the last tile, leaves head 1's pool over all rows.
-/
import proofs.«135677_j5583457485032_1_alg».proof.Proof.Gen.KernelIdeal.Frame
import proofs.«135677_j5583457485032_1_alg».proof.Proof.Pieces2
import proofs.«135677_j5583457485032_1_alg».proof.Proof.Tile
import proofs.«135677_j5583457485032_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2b

open Cert.KernelIdeal Cert.KernelIdeal.Gen

-- the TensorCore's buffer contents when the region is entered
variable (V : (c : Dev nD) → (b : Ref sig .tc) → Buf (Elt Ideal) ((c : Thread nD τ).loc b))

/-- Head 1's re-weighed rows and the direction pair, as the region finds them. -/
abbrev rows (c : Dev nD) : FVec Ideal S200000x256 .f32 := V c main_v12_1
abbrev dirs (c : Dev nD) : FVec Ideal S2x256 .f32 := V c main_v25

/-- The blocks the body is handed at point t: head 0's tile, head 1's tile, the direction pair. -/
abbrev tile0 (c : Dev nD) (t : Fin cfg2.N) : Vec Ideal S2000x256 .f32 := iblk2 V c 0 t
abbrev tile (c : Dev nD) (t : Fin cfg2.N) : Vec Ideal S2000x256 .f32 := iblk2 V c 1 t
abbrev pair (c : Dev nD) (t : Fin cfg2.N) : Vec Ideal S2x256 .f32 := iblk2 V c 2 t

/-- Head 1's window sits on tile t of the rows; the pair's window never moves. -/
theorem index_facts : ∀ t : Fin cfg2.N, (win2_1.index t 0 = t.val ∧ win2_1.index t 1 = 0) ∧ (win2_2.index t 0 = 0 ∧ win2_2.index t 1 = 0) :=
  (by decide +kernel : ∀ t : Fin grid2.N, (win2_1.index t 0 = t.val ∧ win2_1.index t 1 = 0) ∧ (win2_2.index t 0 = 0 ∧ win2_2.index t 1 = 0))

theorem lt_grid (t : Fin cfg2.N) : t.val < 100 := lt_of_lt_of_eq t.isLt (show cfg2.N = 100 from N_2)

/-- Row r of tile t is row 2000 t + r of the rows. -/
theorem tile_apply (c : Dev nD) (t : Fin cfg2.N) (r : Fin 2000) (d : Fin 256) :
    tile V c t (ix2 r d) = rows V c (ix2 ⟨t.val * 2000 + r.val, by have := lt_grid t; have := r.isLt; omega⟩ d) := by
  unfold tile iblk2
  rw [View.read_apply]
  show V c main_v12_1 _ = V c main_v12_1 _
  congr 1
  funext a
  apply Fin.ext
  match a with
  | ⟨0, _⟩ => show win2_1.index t 0 * 2000 + 1 * r.val = t.val * 2000 + r.val; rw [(index_facts t).1.1]; omega
  | ⟨1, _⟩ => show win2_1.index t 1 * 256 + 1 * d.val = d.val; rw [(index_facts t).1.2]; omega

/-- The pair's block is the pair. -/
theorem pair_apply (c : Dev nD) (t : Fin cfg2.N) (a : Fin 2) (k : Fin 256) :
    pair V c t (ix2 a k) = dirs V c (ix2 a k) := by
  unfold pair iblk2
  rw [View.read_apply]
  show V c main_v25 _ = V c main_v25 _
  congr 1
  funext b
  apply Fin.ext
  match b with
  | ⟨0, _⟩ => show win2_2.index t 0 * 2 + 1 * a.val = a.val; rw [(index_facts t).2.1]; omega
  | ⟨1, _⟩ => show win2_2.index t 1 * 256 + 1 * k.val = k.val; rw [(index_facts t).2.2]; omega

/-- The gated rows of tile n, summed at column d: the sum over the tile's rows 2000 n + r of the row's gate times its
    entry d, the gate taken of the row's score against row 1 of the pair. -/
def tileTerm (c : Dev nD) (d : Fin 256) (n : ℕ) (hn : n < 100) : EReal :=
  ∑ r : Fin 2000,
    Cert.Spec.gate (Cert.Spec.score (rows V c) (Cert.Spec.rowOf (dirs V c) 1) ⟨n * 2000 + r.val, by have := r.isLt; omega⟩)
      * rows V c (ix2 ⟨n * 2000 + r.val, by have := r.isLt; omega⟩ d)

/-- What the body stores into head 1's running row at point t, over a running row acc: acc plus tile t's term. The
    score of a row of the tile against row 1 of the pair's block is the row's score in the specification's words. -/
theorem body_adds (c : Dev nD) (t : Fin cfg2.N) (acc : Vec Ideal S1x256 .f32) (u : Fin 1) (d : Fin 256) :
    k2_pay1 (F := Ideal) (k2_pay4 (F := Ideal) (tile V c t)) (k2_pay7 (F := Ideal) (tile V c t) (pair V c t)) acc (ix2 u d)
      = acc (ix2 u d) + tileTerm V c d t.val (lt_grid t) := by
  refine (Cert.KernelIdeal.Tile.k2_pay1_apply (tile V c t) (pair V c t) acc u d).trans ?_
  refine congrArg (acc (ix2 u d) + ·) (Finset.sum_congr rfl fun r _ => ?_)
  rw [tile_apply V c t r d]
  refine congrArg (fun s => Cert.Spec.gate s * _) ?_
  refine Finset.sum_congr rfl fun k _ => ?_
  rw [tile_apply V c t r k, pair_apply V c t 1 k]
  rfl

/-- At the first point the running row is reset, so the body leaves tile 0's term. -/
theorem row_reset (c : Dev nD) (t : Fin cfg2.N) (h0 : t.val % 100 = 0) (u : Fin 1) (d : Fin 256) :
    (outsAt2 V c t.val t.isLt).2 (ix2 u d) = 0 + tileTerm V c d t.val (lt_grid t) := by
  rw [outsAt2_A V c t h0]
  dsimp only
  refine (congrFun (Cert.KernelIdeal.Pieces2.out2_A_4_eq (F := Ideal) c (grid2.coords t) (ms2_0 t) (hs2_0 t) (ms2_1 t) (hs2_1 t) (ms2_2 t) (hs2_2 t) (ms2_3 t) (hs2_3 t) (ms2_4 t) (hs2_4 t)
    ((hcond2_0 t).mpr h0) (tile0 V c t) (tile V c t) (pair V c t)) (ix2 u d)).trans ?_
  refine (body_adds V c t (k2_pay3 (F := Ideal)) u d).trans ?_
  rw [Cert.KernelIdeal.Tile.k2_pay3_apply]

/-- At a later point the body adds the tile's term to what the point before left. -/
theorem row_update (c : Dev nD) (t : Fin cfg2.N) (h0 : ¬t.val % 100 = 0) (u : Fin 1) (d : Fin 256) :
    (outsAt2 V c t.val t.isLt).2 (ix2 u d)
      = (outsAt2 V c (t.val - 1) (Nat.lt_of_le_of_lt (Nat.sub_le _ _) t.isLt)).2 (ix2 u d) + tileTerm V c d t.val (lt_grid t) := by
  rw [outsAt2_B V c t h0]
  dsimp only
  refine (congrFun (Cert.KernelIdeal.Pieces2.out2_B_4_eq (F := Ideal) c (grid2.coords t) (ms2_0 t) (hs2_0 t) (ms2_1 t) (hs2_1 t) (ms2_2 t) (hs2_2 t) (ms2_3 t) (hs2_3 t) (ms2_4 t) (hs2_4 t)
    (fun h => h0 ((hcond2_0 t).mp h)) (tile0 V c t) (tile V c t) (pair V c t)
    (outsAt2 V c (t.val - 1) (Nat.lt_of_le_of_lt (Nat.sub_le _ _) t.isLt)).1
    (outsAt2 V c (t.val - 1) (Nat.lt_of_le_of_lt (Nat.sub_le _ _) t.isLt)).2) (ix2 u d)).trans ?_
  exact body_adds V c t _ u d

theorem grid_eq : cfg2.N = 100 := N_2

/-- So after point n head 1's running row holds the terms of the tiles 0 … n. -/
theorem row_after (c : Dev nD) (u : Fin 1) (d : Fin 256) (n : ℕ) (hn : n < 100) :
    (outsAt2 V c n (lt_of_lt_of_eq hn grid_eq.symm)).2 (ix2 u d)
      = 0 + ∑ t : Fin (n + 1), tileTerm V c d t.val (lt_of_lt_of_le t.isLt hn) :=
  Cert.TiledSum.running_total 100 (fun n hn => (outsAt2 V c n (lt_of_lt_of_eq hn grid_eq.symm)).2 (ix2 u d)) 0
    (fun n hn => tileTerm V c d n hn)
    (fun h => row_reset V c ⟨0, lt_of_lt_of_eq h grid_eq.symm⟩ (Nat.zero_mod _) u d)
    (fun n h => row_update V c ⟨n + 1, lt_of_lt_of_eq h grid_eq.symm⟩ (by show ¬(n + 1) % 100 = 0; omega) u d)
    n hn

/-- After the last tile it holds head 1's pool: the hundred tiles' terms are the one sum over all the rows. (The point
    is kept a variable: the running rows are defined by recursion on it.) -/
theorem row_last (c : Dev nD) (n : ℕ) (hn : n < cfg2.N) (h99 : n = 99) :
    ((outsAt2 V c n hn).2 : Vec Ideal S1x256 .f32) = Cert.Spec.pooled (rows V c) (Cert.Spec.rowOf (dirs V c) 1) := by
  funext j
  obtain ⟨u, d, rfl⟩ : ∃ (u : Fin 1) (d : Fin 256), j = ix2 u d := ⟨j 0, j 1, eq_ix2 j⟩
  refine (row_after V c u d n (by omega)).trans ?_
  subst h99
  rw [zero_add, Cert.Spec.pooled_apply]
  unfold tileTerm
  exact Cert.Spec.sum_rows_tiles 100 2000 rfl
    (fun n => Cert.Spec.gate (Cert.Spec.score (rows V c) (Cert.Spec.rowOf (dirs V c) 1) n) * rows V c (ix2 n d))

/-- Head 1's result block never moves. -/
theorem out_index : ∀ t : Fin cfg2.N, win2_4.index t 0 = 0 ∧ win2_4.index t 1 = 0 :=
  (by decide +kernel : ∀ t : Fin grid2.N, win2_4.index t 0 = 0 ∧ win2_4.index t 1 = 0)

/-- The one write-back, after the last tile, writes the pool: the result's one block, read through zero offsets, is the
    whole result array. -/
theorem flushed_eq (c : Dev nD) (t : Fin cfg2.N) (hf : (cfg2.win 4).flush t = true) :
    (dat2 (F := Ideal) V c).flushed 4 t
      = ((cfg2.win 4).blk t).view.read (Elt Ideal) (Cert.Spec.pooled (rows V c) (Cert.Spec.rowOf (dirs V c) 1)) := by
  have h99 : t.val = 99 := by have := (flush2_4 t).mp hf; have := lt_grid t; omega
  show (cfg2.win 4).cut (grid2.coords t) ((dat2 (F := Ideal) V c).after 4 t) = _
  rw [after2_4, row_last V c t.val t.isLt h99]
  have hz' : (fun a => win2_4.index t a * main_v26_1.ty.shape.size a) = fun _ => 0 := funext fun a => by
    match a with
    | ⟨0, _⟩ => show win2_4.index t 0 * 1 = 0; rw [(out_index t).1]
    | ⟨1, _⟩ => show win2_4.index t 1 * 256 = 0; rw [(out_index t).2]
  exact (Memref.read_access_unit_zero (Elt Ideal) main_v26_1 hz' (fun a => by rw [congrFun hz' a]; simp)
    (Cert.Spec.pooled (rows V c) (Cert.Spec.rowOf (dirs V c) 1))).symm

/-- The last point. -/
abbrev lastPoint : Fin cfg2.N := ⟨99, by rw [grid_eq]; omega⟩

/-- Head 1's pool. -/
theorem out1_eq (c : Dev nD) :
    ((dat2 (F := Ideal) V c).arrAt 4 cfg2.N : FVec Ideal S1x256 .f32)
      = Cert.Spec.pooled (V c main_v12_1 : FVec Ideal S200000x256 .f32) (Cert.Spec.rowOf (V c main_v25 : FVec Ideal S2x256 .f32) 1) :=
  (dat2 (F := Ideal) V c).arrAt_eq_of_cover 4 (Cert.Spec.pooled (rows V c) (Cert.Spec.rowOf (dirs V c) 1))
    (flushed_eq V c) fun i =>
    ⟨lastPoint, (flush2_4 lastPoint).mpr rfl, by
      show i ∈ ((View.whole main_v26_1).slice (win2_4.rect lastPoint)).set
      rw [View.set_slice_whole, Rect.mem_set_unit]
      intro a
      have h0 : (i 0 : Nat) < 1 := (i 0).isLt
      have h1 : (i 1 : Nat) < 256 := (i 1).isLt
      match a with
      | ⟨0, _⟩ =>
        show win2_4.index lastPoint 0 * win2_4.size 0 ≤ (i 0 : Nat)
          ∧ (i 0 : Nat) < win2_4.index lastPoint 0 * win2_4.size 0 + win2_4.xsize (grid2.coords lastPoint) 0
        rw [(out_index lastPoint).1, show win2_4.xsize (grid2.coords lastPoint) 0 = 1 from rfl]; omega
      | ⟨1, _⟩ =>
        show win2_4.index lastPoint 1 * win2_4.size 1 ≤ (i 1 : Nat)
          ∧ (i 1 : Nat) < win2_4.index lastPoint 1 * win2_4.size 1 + win2_4.xsize (grid2.coords lastPoint) 1
        rw [(out_index lastPoint).2, show win2_4.xsize (grid2.coords lastPoint) 1 = 256 from rfl]; omega⟩

end Cert.KernelIdeal.Region2b

end
-- ==== Proof.KValue.lean ====
/-
  The kernel program read as a value: what its run leaves in the result buffer is the specification's two heads, side by side.

  The program is three pipelined regions among stretches of host operations, and the buffer contents at each boundary
  are a fold from the launch memory. Read along that fold:
    • region 0 leaves the column sums of the data;
    • the host turns them into the first round's direction for each head (the map H of the head) and stacks the two rows;
    • region 1 leaves each head's re-weighed rows and their column sums, the rows re-weighed against the head's own row
      of the stacked pair;
    • the host turns each head's sums into the head's second direction and stacks them;
    • region 2 leaves each head's pool of its re-weighed rows against its second direction;
    • the host joins the two pools along the columns.
  Substituting each boundary's contents into the next gives, for each head, two rounds of the specification. No region
  and no host operation writes an argument, so the data and the weights are read as launched throughout.
-/
import proofs.«135677_j5583457485032_1_alg».proof.Proof.Gen.KernelIdeal.Frame
import proofs.«135677_j5583457485032_1_alg».proof.Proof.KRun
import proofs.«135677_j5583457485032_1_alg».proof.Proof.Region0
import proofs.«135677_j5583457485032_1_alg».proof.Proof.Region1
import proofs.«135677_j5583457485032_1_alg».proof.Proof.Region2
import proofs.«135677_j5583457485032_1_alg».proof.Proof.Region1b
import proofs.«135677_j5583457485032_1_alg».proof.Proof.Region2b
import proofs.«135677_j5583457485032_1_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The data and the weights as launched. -/
abbrev xs (c : Dev nD) : FVec Ideal S200000x256 .f32 := m ((c.tc : Thread nD τ).loc main_arg0)
abbrev ws (c : Dev nD) : FVec Ideal S2x256x256 .f32 := m ((c.tc : Thread nD τ).loc main_arg1)

/-- Head 0's and head 1's direction maps. -/
def H0 (c : Dev nD) : (Cert.Spec.SR.Idx → EReal) → (Cert.Spec.SR.Idx → EReal) :=
  Cert.Spec.hrow dot_S1x256_S256x256_S1x256_1_0_0_1_n_n bcast_S_S1x256 ![0, 0, 0] slices_S2x256x256_S1x256x256_0_0_0
    shapeCasts_S1x256x256_S256x256 (ws m c)
def H1 (c : Dev nD) : (Cert.Spec.SR.Idx → EReal) → (Cert.Spec.SR.Idx → EReal) :=
  Cert.Spec.hrow dot_S1x256_S256x256_S1x256_1_0_0_1_n_n bcast_S_S1x256 ![1, 0, 0] slices_S2x256x256_S1x256x256_1_0_0
    shapeCasts_S1x256x256_S256x256 (ws m c)

/-- Row 0 of two stacked rows is the first, row 1 the second. -/
theorem rowOf_stack_left (a b : Cert.Spec.SR.Idx → EReal) (h : Shape.Concatenates [S1x256, S1x256] S2x256 0) :
    Cert.Spec.rowOf (concatenate S2x256 0 [⟨S1x256, a⟩, ⟨S1x256, b⟩] h) 0 = a := by
  funext j
  obtain ⟨u, d, rfl⟩ : ∃ (u : Fin 1) (d : Fin 256), j = ix2 u d := ⟨j 0, j 1, eq_ix2 j⟩
  rw [Cert.Spec.rowOf_apply]
  refine concatenate_pair_apply_left (0 : Fin S2x256.rank) a b h (ix2 (0 : Fin 2) d) rfl (ix2 u d) fun ax => ?_
  match ax with
  | ⟨0, _⟩ => show u.val = 0; omega
  | ⟨1, _⟩ => rfl
theorem rowOf_stack_right (a b : Cert.Spec.SR.Idx → EReal) (h : Shape.Concatenates [S1x256, S1x256] S2x256 0) :
    Cert.Spec.rowOf (concatenate S2x256 0 [⟨S1x256, a⟩, ⟨S1x256, b⟩] h) 1 = b := by
  funext j
  obtain ⟨u, d, rfl⟩ : ∃ (u : Fin 1) (d : Fin 256), j = ix2 u d := ⟨j 0, j 1, eq_ix2 j⟩
  rw [Cert.Spec.rowOf_apply]
  refine concatenate_pair_apply_right (0 : Fin S2x256.rank) a b h (ix2 (1 : Fin 2) d) rfl rfl (ix2 u d) (fun ax hax => ?_) ?_
  · match ax with
    | ⟨0, _⟩ => exact absurd rfl hax
    | ⟨1, _⟩ => rfl
  · show u.val + 1 = 1; omega

/-! ## The arguments at every boundary -/

theorem W1_arg0 (c : Dev nD) : W1 m ρ c (Proc.devRef .tc main_arg0) = xs m c :=
  (W1_arr m ρ c 0).trans (((dat0 (V0 m ρ) c).arrAt_in 0 rfl _).trans (A_eq0 (V0 m ρ) c 0))
theorem W1_arg1 (c : Dev nD) : W1 m ρ c (Proc.devRef .tc main_arg1) = ws m c :=
  W1_of_ne m ρ c main_arg1 (by decide)

/-- Region 0's result: the column sums of the data. -/
theorem W1_v0 (c : Dev nD) : (W1 m ρ c (Proc.devRef .tc main_v0) : FVec Ideal S1x256 .f32) = Cert.Spec.colSum (xs m c) :=
  (W1_arr m ρ c 1).trans (Cert.KernelIdeal.Region0.colsum_eq (V0 m ρ) c)

theorem W2_arg0 (c : Dev nD) : W2 m ρ c (Proc.devRef .tc main_arg0) = xs m c := by
  show StableHlo.after hostOps1 (W1 m ρ c) (Proc.devRef .tc main_arg0) = _
  after_results
  exact W1_arg0 m ρ c
theorem W2_arg1 (c : Dev nD) : W2 m ρ c (Proc.devRef .tc main_arg1) = ws m c := by
  show StableHlo.after hostOps1 (W1 m ρ c) (Proc.devRef .tc main_arg1) = _
  after_results
  exact W1_arg1 m ρ c

/-- The first directions, stacked. -/
theorem W2_v11 (c : Dev nD) : (W2 m ρ c (Proc.devRef .tc main_v11) : FVec Ideal S2x256 .f32)
    = concatenate S2x256 0 [⟨S1x256, H0 m c (Cert.Spec.colSum (xs m c))⟩, ⟨S1x256, H1 m c (Cert.Spec.colSum (xs m c))⟩]
        concatenates_S1x256_S1x256_S2x256_d0 := by
  show StableHlo.after hostOps1 (W1 m ρ c) (Proc.devRef .tc main_v11) = _
  after_results
  rw [W1_arg1 m ρ c, W1_v0 m ρ c]
  rfl

/-! ## Region 1 and the second directions -/

/-- The first-round rows of a head: the data re-weighed against the head's first direction. -/
abbrev rows0 (c : Dev nD) : Cert.Spec.SX.Idx → EReal := Cert.Spec.reweigh (xs m c) (H0 m c (Cert.Spec.colSum (xs m c)))
abbrev rows1 (c : Dev nD) : Cert.Spec.SX.Idx → EReal := Cert.Spec.reweigh (xs m c) (H1 m c (Cert.Spec.colSum (xs m c)))

theorem V2_row0 (c : Dev nD) : Cert.Spec.rowOf (V2 m ρ c main_v11 : FVec Ideal S2x256 .f32) 0 = H0 m c (Cert.Spec.colSum (xs m c)) := by
  show Cert.Spec.rowOf (W2 m ρ c (Proc.devRef .tc main_v11) : FVec Ideal S2x256 .f32) 0 = _
  rw [W2_v11 m ρ c, rowOf_stack_left]
theorem V2_row1 (c : Dev nD) : Cert.Spec.rowOf (V2 m ρ c main_v11 : FVec Ideal S2x256 .f32) 1 = H1 m c (Cert.Spec.colSum (xs m c)) := by
  show Cert.Spec.rowOf (W2 m ρ c (Proc.devRef .tc main_v11) : FVec Ideal S2x256 .f32) 1 = _
  rw [W2_v11 m ρ c, rowOf_stack_right]
theorem V2_arg0 (c : Dev nD) : (V2 m ρ c main_arg0 : FVec Ideal S200000x256 .f32) = xs m c := W2_arg0 m ρ c

theorem W3_v12_0 (c : Dev nD) : (W3 m ρ c (Proc.devRef .tc main_v12_0) : FVec Ideal S200000x256 .f32) = rows0 m c := by
  refine (W3_arr m ρ c 2).trans ((Cert.KernelIdeal.Region1.xi0_eq (V2 m ρ) c).trans ?_)
  rw [V2_arg0 m ρ c, V2_row0 m ρ c]
theorem W3_v12_1 (c : Dev nD) : (W3 m ρ c (Proc.devRef .tc main_v12_1) : FVec Ideal S200000x256 .f32) = rows1 m c := by
  refine (W3_arr m ρ c 3).trans ((Cert.KernelIdeal.Region1b.xi1_eq (V2 m ρ) c).trans ?_)
  rw [V2_arg0 m ρ c, V2_row1 m ρ c]
theorem W3_v12_2 (c : Dev nD) : (W3 m ρ c (Proc.devRef .tc main_v12_2) : FVec Ideal S1x256 .f32) = Cert.Spec.colSum (rows0 m c) := by
  refine (W3_arr m ρ c 4).trans ((Cert.KernelIdeal.Region1.sum0_eq (V2 m ρ) c).trans ?_)
  rw [V2_arg0 m ρ c, V2_row0 m ρ c]
theorem W3_v12_3 (c : Dev nD) : (W3 m ρ c (Proc.devRef .tc main_v12_3) : FVec Ideal S1x256 .f32) = Cert.Spec.colSum (rows1 m c) := by
  refine (W3_arr m ρ c 5).trans ((Cert.KernelIdeal.Region1b.sum1_eq (V2 m ρ) c).trans ?_)
  rw [V2_arg0 m ρ c, V2_row1 m ρ c]
theorem W3_arg1 (c : Dev nD) : W3 m ρ c (Proc.devRef .tc main_arg1) = ws m c :=
  (W3_of_ne m ρ c main_arg1 (by decide)).trans (W2_arg1 m ρ c)

/-- The second directions, stacked. -/
theorem W4_v25 (c : Dev nD) : (W4 m ρ c (Proc.devRef .tc main_v25) : FVec Ideal S2x256 .f32)
    = concatenate S2x256 0 [⟨S1x256, H0 m c (Cert.Spec.colSum (rows0 m c))⟩, ⟨S1x256, H1 m c (Cert.Spec.colSum (rows1 m c))⟩]
        concatenates_S1x256_S1x256_S2x256_d0 := by
  show StableHlo.after hostOps2 (W3 m ρ c) (Proc.devRef .tc main_v25) = _
  after_results
  rw [W3_arg1 m ρ c, W3_v12_2 m ρ c, W3_v12_3 m ρ c]
  rfl
theorem W4_v12_0 (c : Dev nD) : (W4 m ρ c (Proc.devRef .tc main_v12_0) : FVec Ideal S200000x256 .f32) = rows0 m c := by
  show StableHlo.after hostOps2 (W3 m ρ c) (Proc.devRef .tc main_v12_0) = _
  after_results
  exact W3_v12_0 m ρ c
theorem W4_v12_1 (c : Dev nD) : (W4 m ρ c (Proc.devRef .tc main_v12_1) : FVec Ideal S200000x256 .f32) = rows1 m c := by
  show StableHlo.after hostOps2 (W3 m ρ c) (Proc.devRef .tc main_v12_1) = _
  after_results
  exact W3_v12_1 m ρ c

/-! ## Region 2 and the result -/

theorem W5_v26_0 (c : Dev nD) : (W5 m ρ c (Proc.devRef .tc main_v26_0) : FVec Ideal S1x256 .f32) = Cert.Spec.head (H0 m c) (xs m c) := by
  refine (W5_arr m ρ c 3).trans ((Cert.KernelIdeal.Region2.out0_eq (V4 m ρ) c).trans ?_)
  show Cert.Spec.pooled (W4 m ρ c (Proc.devRef .tc main_v12_0) : FVec Ideal S200000x256 .f32)
      (Cert.Spec.rowOf (W4 m ρ c (Proc.devRef .tc main_v25) : FVec Ideal S2x256 .f32) 0) = _
  rw [W4_v12_0 m ρ c, W4_v25 m ρ c, rowOf_stack_left]
  rfl
theorem W5_v26_1 (c : Dev nD) : (W5 m ρ c (Proc.devRef .tc main_v26_1) : FVec Ideal S1x256 .f32) = Cert.Spec.head (H1 m c) (xs m c) := by
  refine (W5_arr m ρ c 4).trans ((Cert.KernelIdeal.Region2b.out1_eq (V4 m ρ) c).trans ?_)
  show Cert.Spec.pooled (W4 m ρ c (Proc.devRef .tc main_v12_1) : FVec Ideal S200000x256 .f32)
      (Cert.Spec.rowOf (W4 m ρ c (Proc.devRef .tc main_v25) : FVec Ideal S2x256 .f32) 1) = _
  rw [W4_v12_1 m ρ c, W4_v25 m ρ c, rowOf_stack_right]
  rfl

/-- The two heads' results, side by side. -/
abbrev result (c : Dev nD) : FVec Ideal S1x512 .f32 :=
  concatenate S1x512 1 [⟨S1x256, Cert.Spec.head (H0 m c) (xs m c)⟩, ⟨S1x256, Cert.Spec.head (H1 m c) (xs m c)⟩]
    concatenates_S1x256_S1x256_S1x512_d1

theorem W6_v27 (c : Dev nD) : (W6 m ρ c (Proc.devRef .tc main_v27) : FVec Ideal S1x512 .f32) = result m c := by
  show StableHlo.after hostOps3 (W5 m ρ c) (Proc.devRef .tc main_v27) = _
  after_results
  rw [W5_v26_0 m ρ c, W5_v26_1 m ρ c]

/-- Every weakly fair execution of the kernel program terminates, nothing faulting, with the result buffer at the two
    heads' results and the arguments as launched. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W6_v27 m ρ c), (h c).2⟩) (run_result m ρ)

end Cert.KernelIdeal.KValue

end
-- ==== Proof.RefHead0.lean ====
/-
  The reference's head 0, read stage by stage: its result row is the specification's head applied to the data, with the
  direction map of head 0 (the mean row times the head's weight matrix, through tanh).

  The reference computes a round on whole arrays: the column sums as one reduction over the rows; the scores as a product
  of the data with the transposed direction; the gate as  1 / (1 + exp (-(s / max |s| ε)))  with |s| taken through a sum
  over an axis of extent one; the re-weighed rows as an elementwise product with the gate broadcast across the columns;
  the pool as a product of the transposed gate with the rows. Each stage, read at an entry, is the specification's entry:
  a sum over one term is that term, the zero the sums start from adds nothing, the word of 1.0 is the number one, and
  1 / (1 + exp (-v)) is the logistic function of v by definition.
-/
import proofs.«135677_j5583457485032_1_alg».proof.Proof.Gen.ReferenceIdeal.Read
import proofs.«135677_j5583457485032_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open Idealize.ShloMosaic Idealize.ShloMosaic.ValueIdx

namespace Cert.ReferenceIdeal.RefHead0

open Cert.ReferenceIdeal Cert.ReferenceIdeal.Gen Cert.ReferenceIdeal.Read

/-- Head 0's direction map: from the column sums of a round's rows to the round's direction. -/
def H (x1 : FVec Ideal S2x256x256 .f32) : (Cert.Spec.SR.Idx → EReal) → (Cert.Spec.SR.Idx → EReal) :=
  Cert.Spec.hrow dot_S1x256_S256x256_S1x256_1_0_0_1_n_n bcast_S_S1x256 ![0, 0, 0] slices_S2x256x256_S1x256x256_0_0_0
    shapeCasts_S1x256x256_S256x256 x1

/-- The zero word is the number zero. -/
theorem zero_word : (FloatOps.ofBits (F := Ideal) .f32 0x00000000#32 : Ideal .f32) = 0 := by
  rw [Ideal.ofBits_def, Ideal.ofBits_zero_f32]

/-- The first round's column sums: the reduction over the rows, kept as a row. -/
theorem colsum1 (x0 : FVec Ideal S200000x256 .f32) :
    val_main_v3 (F := Ideal) x0 = Cert.Spec.colSum x0 := by
  funext j
  obtain ⟨u, d, rfl⟩ : ∃ (u : Fin 1) (d : Fin 256), j = ix2 u d := ⟨j 0, j 1, eq_ix2 j⟩
  rw [val_main_v3_apply, val_main_v2_apply, val_main_cst_apply, zero_word, zero_add, Cert.Spec.colSum_apply]
  refine Finset.sum_congr rfl fun n _ => ?_
  exact congrArg x0 (funext fun a => Fin.ext (by match a with | ⟨0, _⟩ => rfl | ⟨1, _⟩ => rfl))

/-- The first round's direction is the head's map of the column sums: the same operations on both sides. -/
theorem direction1 (x0 : FVec Ideal S200000x256 .f32) (x1 : FVec Ideal S2x256x256 .f32) :
    val_main_v7 (F := Ideal) x0 x1 = H x1 (val_main_v3 (F := Ideal) x0) := by
  unfold val_main_v7 val_main_v6 val_main_v5 val_main_v4 val_main_cst_0 val_main_v1 val_main_v0 H Cert.Spec.hrow
  rfl

/-- The gate of a score, as the programs write it: one over one plus the exponential of minus the score divided by
    its floored magnitude, the magnitude taken through a sum of one term started from zero. -/
theorem gate_written (s : EReal) :
    Ideal.div (Ideal.ofBits .f32 0x3F800000#32)
        (Ideal.ofBits .f32 0x3F800000#32 + Ideal.exp (-(Ideal.div s (max (0 + max s (-s)) (Ideal.ofBits .f32 0x2B8CBCCC#32)))))
      = Cert.Spec.gate s := by
  rw [Ideal.ofBits_one_f32, zero_add]
  rfl

/-- The first round's scores: the product of the rows with the transposed direction. -/
theorem score1 (x0 : FVec Ideal S200000x256 .f32) (x1 : FVec Ideal S2x256x256 .f32) (n : Fin 200000) :
    val_main_v9 (F := Ideal) x0 x1 (ix2 n (0 : Fin 1)) = Cert.Spec.score x0 (val_main_v7 (F := Ideal) x0 x1) n := by
  rw [val_main_v9_apply]
  unfold Cert.Spec.score
  refine Finset.sum_congr rfl fun k _ => ?_
  rw [val_main_v8_apply]
  refine congrArg₂ (· * ·) ?_ ?_
  · exact congrArg x0 (funext fun a => Fin.ext (by match a with | ⟨0, _⟩ => rfl | ⟨1, _⟩ => rfl))
  · exact congrArg (val_main_v7 (F := Ideal) x0 x1) (funext fun a => Fin.ext (by match a with | ⟨0, _⟩ => rfl | ⟨1, _⟩ => rfl))

/-- The first round's gate. -/
theorem gate1 (x0 : FVec Ideal S200000x256 .f32) (x1 : FVec Ideal S2x256x256 .f32) (n : Fin 200000) :
    val_main_v21 (F := Ideal) x0 x1 (ix2 n (0 : Fin 1))
      = Cert.Spec.gate (Cert.Spec.score x0 (val_main_v7 (F := Ideal) x0 x1) n) := by
  have e : idx_main_v11 (idx_main_v12 (ix2 n (0 : Fin 1))) (0 : Fin 1) = ix2 n (0 : Fin 1) :=
    funext fun a => Fin.ext (by match a with | ⟨0, _⟩ => rfl | ⟨1, _⟩ => rfl)
  rw [val_main_v21_apply, val_main_v20_apply, val_main_cst_4_apply, val_main_v19_apply, val_main_v18_apply,
    val_main_cst_3_apply, val_main_v17_apply, val_main_v16_apply, val_main_v15_apply, val_main_v14_apply,
    val_main_v13_apply, val_main_cst_2_apply, val_main_v12_apply, val_main_v11_apply, val_main_cst_1_apply,
    Fin.sum_univ_one, e, val_main_v10_apply, score1]
  simp only [Ideal.hostDivf_def, Ideal.ofBits_def, Ideal.addf_def, Ideal.hostUnary_exp_def, Ideal.hostNegf_def,
    Ideal.negf_def, Ideal.maximumf_def, Ideal.hostAbsf_def, Ideal.absf_def, Ideal.ofBits_zero_f32]
  exact gate_written _

/-- The first round's re-weighed rows: the rows times the gate spread across the columns. -/
theorem rows1 (x0 : FVec Ideal S200000x256 .f32) (x1 : FVec Ideal S2x256x256 .f32) :
    val_main_v25 (F := Ideal) x0 x1 = Cert.Spec.reweigh x0 (val_main_v7 (F := Ideal) x0 x1) := by
  funext i
  obtain ⟨n, d, rfl⟩ : ∃ (n : Fin 200000) (d : Fin 256), i = ix2 n d := ⟨i 0, i 1, eq_ix2 i⟩
  have e : idx_main_v24 (ix2 n d) = ix2 n (0 : Fin 1) :=
    funext fun a => Fin.ext (by match a with | ⟨0, _⟩ => rfl | ⟨1, _⟩ => rfl)
  rw [val_main_v25_apply, val_main_v24_apply, e, gate1, Cert.Spec.reweigh_apply, Ideal.mulf_def]

/-- The second round's column sums are those of the re-weighed rows: the same reduction on another array. -/
theorem colsum2 (x0 : FVec Ideal S200000x256 .f32) (x1 : FVec Ideal S2x256x256 .f32) :
    val_main_v27 (F := Ideal) x0 x1 = Cert.Spec.colSum (val_main_v25 (F := Ideal) x0 x1) :=
  colsum1 (val_main_v25 (F := Ideal) x0 x1)

/-- The second round's direction is the head's map of its column sums. -/
theorem direction2 (x0 : FVec Ideal S200000x256 .f32) (x1 : FVec Ideal S2x256x256 .f32) :
    val_main_v31 (F := Ideal) x0 x1 = H x1 (val_main_v27 (F := Ideal) x0 x1) := by
  unfold val_main_v31 val_main_v30 val_main_v29 val_main_v28 val_main_cst_6 val_main_v1 val_main_v0 H Cert.Spec.hrow
  rfl

/-- The second round's scores: the product of the re-weighed rows with the transposed second direction. -/
theorem score2 (x0 : FVec Ideal S200000x256 .f32) (x1 : FVec Ideal S2x256x256 .f32) (n : Fin 200000) :
    val_main_v33 (F := Ideal) x0 x1 (ix2 n (0 : Fin 1))
      = Cert.Spec.score (val_main_v25 (F := Ideal) x0 x1) (val_main_v31 (F := Ideal) x0 x1) n := by
  rw [val_main_v33_apply]
  unfold Cert.Spec.score
  refine Finset.sum_congr rfl fun k _ => ?_
  rw [val_main_v32_apply]
  refine congrArg₂ (· * ·) ?_ ?_
  · exact congrArg (val_main_v25 (F := Ideal) x0 x1)
      (funext fun a => Fin.ext (by match a with | ⟨0, _⟩ => rfl | ⟨1, _⟩ => rfl))
  · exact congrArg (val_main_v31 (F := Ideal) x0 x1)
      (funext fun a => Fin.ext (by match a with | ⟨0, _⟩ => rfl | ⟨1, _⟩ => rfl))

/-- The second round's gate. -/
theorem gate2 (x0 : FVec Ideal S200000x256 .f32) (x1 : FVec Ideal S2x256x256 .f32) (n : Fin 200000) :
    val_main_v45 (F := Ideal) x0 x1 (ix2 n (0 : Fin 1))
      = Cert.Spec.gate (Cert.Spec.score (val_main_v25 (F := Ideal) x0 x1) (val_main_v31 (F := Ideal) x0 x1) n) := by
  have e : idx_main_v35 (idx_main_v36 (ix2 n (0 : Fin 1))) (0 : Fin 1) = ix2 n (0 : Fin 1) :=
    funext fun a => Fin.ext (by match a with | ⟨0, _⟩ => rfl | ⟨1, _⟩ => rfl)
  rw [val_main_v45_apply, val_main_v44_apply, val_main_cst_10_apply, val_main_v43_apply, val_main_v42_apply,
    val_main_cst_9_apply, val_main_v41_apply, val_main_v40_apply, val_main_v39_apply, val_main_v38_apply,
    val_main_v37_apply, val_main_cst_8_apply, val_main_v36_apply, val_main_v35_apply, val_main_cst_7_apply,
    Fin.sum_univ_one, e, val_main_v34_apply, score2]
  simp only [Ideal.hostDivf_def, Ideal.ofBits_def, Ideal.addf_def, Ideal.hostUnary_exp_def, Ideal.hostNegf_def,
    Ideal.negf_def, Ideal.maximumf_def, Ideal.hostAbsf_def, Ideal.absf_def, Ideal.ofBits_zero_f32]
  exact gate_written _

/-- The head's result: the product of the transposed second gate with the re-weighed rows is their gated pool. -/
theorem pool2 (x0 : FVec Ideal S200000x256 .f32) (x1 : FVec Ideal S2x256x256 .f32) :
    val_main_v47 (F := Ideal) x0 x1
      = Cert.Spec.pooled (val_main_v25 (F := Ideal) x0 x1) (val_main_v31 (F := Ideal) x0 x1) := by
  funext j
  obtain ⟨u, d, rfl⟩ : ∃ (u : Fin 1) (d : Fin 256), j = ix2 u d := ⟨j 0, j 1, eq_ix2 j⟩
  obtain rfl : u = 0 := Fin.fin_one_eq_zero u
  rw [val_main_v47_apply, Cert.Spec.pooled_apply]
  refine Finset.sum_congr rfl fun n _ => ?_
  have e1 : idx_main_v46 (lidx_main_v47 (ix2 (0 : Fin 1) d) n) = ix2 n (0 : Fin 1) :=
    funext fun a => Fin.ext (by match a with | ⟨0, _⟩ => rfl | ⟨1, _⟩ => rfl)
  have e2 : ridx_main_v47 (ix2 (0 : Fin 1) d) n = ix2 n d :=
    funext fun a => Fin.ext (by match a with | ⟨0, _⟩ => rfl | ⟨1, _⟩ => rfl)
  rw [val_main_v46_apply, e1, gate2, e2]

/-- The reference's head 0 is the specification's. -/
theorem head_eq (x0 : FVec Ideal S200000x256 .f32) (x1 : FVec Ideal S2x256x256 .f32) :
    val_main_v47 (F := Ideal) x0 x1 = Cert.Spec.head (H x1) x0 := by
  rw [pool2, direction2, colsum2, rows1, direction1, colsum1]
  rfl

end Cert.ReferenceIdeal.RefHead0

end
-- ==== Proof.RefHead1.lean ====
/-
  The reference's head 1, read stage by stage: its result row is the specification's head applied to the data, with the
  direction map of head 1 (the mean row times the head's weight matrix, through tanh).

  The reference computes a round on whole arrays: the column sums as one reduction over the rows; the scores as a product
  of the data with the transposed direction; the gate as  1 / (1 + exp (-(s / max |s| ε)))  with |s| taken through a sum
  over an axis of extent one; the re-weighed rows as an elementwise product with the gate broadcast across the columns;
  the pool as a product of the transposed gate with the rows. Each stage, read at an entry, is the specification's entry:
  a sum over one term is that term, the zero the sums start from adds nothing, the word of 1.0 is the number one, and
  1 / (1 + exp (-v)) is the logistic function of v by definition.
-/
import proofs.«135677_j5583457485032_1_alg».proof.Proof.Gen.ReferenceIdeal.Read
import proofs.«135677_j5583457485032_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefHead1

open Cert.ReferenceIdeal Cert.ReferenceIdeal.Gen Cert.ReferenceIdeal.Read

/-- Head 1's direction map: from the column sums of a round's rows to the round's direction. -/
def H (x1 : FVec Ideal S2x256x256 .f32) : (Cert.Spec.SR.Idx → EReal) → (Cert.Spec.SR.Idx → EReal) :=
  Cert.Spec.hrow dot_S1x256_S256x256_S1x256_1_0_0_1_n_n bcast_S_S1x256 ![1, 0, 0] slices_S2x256x256_S1x256x256_1_0_0
    shapeCasts_S1x256x256_S256x256 x1

/-- The word of 1.0 is the number one. -/
theorem ofBits_one_f32 : Ideal.ofBits .f32 0x3F800000#32 = 1 := by
  simp [Ideal.ofBits, Ideal.ieee, -EReal.coe_mul]; norm_num

/-- Round 1: the broadcast reduction over the rows is the column sums. -/
theorem colsum1 (x0 : FVec Ideal S200000x256 .f32) :
    val_main_v53 (F := Ideal) x0 = Cert.Spec.colSum x0 := by
  funext j
  obtain ⟨u, d, rfl⟩ : ∃ (u : Fin 1) (d : Fin 256), j = ix2 u d := ⟨j 0, j 1, eq_ix2 j⟩
  rw [val_main_v53_apply, val_main_v52_apply, val_main_cst_11_apply, Ideal.ofBits_def, Ideal.ofBits_zero_f32, zero_add,
    Cert.Spec.colSum_apply]
  refine Finset.sum_congr rfl fun n _ => congrArg x0 ?_
  exact funext fun a => Fin.ext (by match a with | ⟨0, _⟩ => rfl | ⟨1, _⟩ => rfl)

/-- Round 1: the direction is the map H of the column sums (the same operations on both sides). -/
theorem dir1 (x0 : FVec Ideal S200000x256 .f32) (x1 : FVec Ideal S2x256x256 .f32) :
    val_main_v57 (F := Ideal) x0 x1 = H x1 (val_main_v53 (F := Ideal) x0) := by
  unfold val_main_v57 val_main_v56 val_main_v55 val_main_v54 val_main_cst_12 val_main_v51 val_main_v50 H Cert.Spec.hrow
  rfl

/-- Round 1: the product of the rows with the transposed direction is the score. -/
theorem score1 (x0 : FVec Ideal S200000x256 .f32) (x1 : FVec Ideal S2x256x256 .f32) (n : Fin 200000) :
    val_main_v59 (F := Ideal) x0 x1 (ix2 n (0 : Fin 1)) = Cert.Spec.score x0 (val_main_v57 (F := Ideal) x0 x1) n := by
  rw [val_main_v59_apply]
  unfold Cert.Spec.score
  refine Finset.sum_congr rfl fun k _ => ?_
  rw [val_main_v58_apply]
  refine congrArg₂ (· * ·) (congrArg x0 ?_) (congrArg (val_main_v57 (F := Ideal) x0 x1) ?_)
  · exact funext fun a => Fin.ext (by match a with | ⟨0, _⟩ => rfl | ⟨1, _⟩ => rfl)
  · exact funext fun a => Fin.ext (by match a with | ⟨0, _⟩ => rfl | ⟨1, _⟩ => rfl)

/-- Round 1: from the score column to the gate column, entry by entry. -/
theorem gate1 (x0 : FVec Ideal S200000x256 .f32) (x1 : FVec Ideal S2x256x256 .f32) (n : Fin 200000) :
    val_main_v71 (F := Ideal) x0 x1 (ix2 n (0 : Fin 1))
      = Cert.Spec.gate (val_main_v59 (F := Ideal) x0 x1 (ix2 n (0 : Fin 1))) := by
  have e : idx_main_v61 (idx_main_v62 (ix2 n (0 : Fin 1))) (0 : Fin 1) = ix2 n (0 : Fin 1) :=
    funext fun a => Fin.ext (by match a with | ⟨0, _⟩ => rfl | ⟨1, _⟩ => rfl)
  rw [val_main_v71_apply, val_main_v70_apply, val_main_cst_16_apply, val_main_v69_apply, val_main_v68_apply,
    val_main_cst_15_apply, val_main_v67_apply, val_main_v66_apply, val_main_v65_apply, val_main_v64_apply,
    val_main_v63_apply, val_main_cst_14_apply, val_main_v62_apply, val_main_v61_apply, val_main_cst_13_apply,
    Fin.sum_univ_one, e, val_main_v60_apply]
  simp only [Ideal.hostDivf_def, Ideal.hostNegf_def, Ideal.negf_def, Ideal.hostAbsf_def, Ideal.absf_def,
    Ideal.hostUnary_exp_def, Ideal.addf_def, Ideal.maximumf_def, Ideal.ofBits_def, Ideal.ofBits_zero_f32, ofBits_one_f32,
    zero_add]
  rfl

/-- Round 1: the rows times the gate broadcast across the columns are the re-weighed rows. -/
theorem reweigh1 (x0 : FVec Ideal S200000x256 .f32) (x1 : FVec Ideal S2x256x256 .f32) :
    val_main_v75 (F := Ideal) x0 x1 = Cert.Spec.reweigh x0 (val_main_v57 (F := Ideal) x0 x1) := by
  funext i
  obtain ⟨n, d, rfl⟩ : ∃ (n : Fin 200000) (d : Fin 256), i = ix2 n d := ⟨i 0, i 1, eq_ix2 i⟩
  have e : idx_main_v74 (ix2 n d) = ix2 n (0 : Fin 1) :=
    funext fun a => Fin.ext (by match a with | ⟨0, _⟩ => rfl | ⟨1, _⟩ => rfl)
  rw [val_main_v75_apply, val_main_v74_apply, e, gate1, score1, Ideal.mulf_def, Cert.Spec.reweigh_apply]

/-- Round 2: the broadcast reduction over the re-weighed rows is their column sums. -/
theorem colsum2 (x0 : FVec Ideal S200000x256 .f32) (x1 : FVec Ideal S2x256x256 .f32) :
    val_main_v77 (F := Ideal) x0 x1 = Cert.Spec.colSum (val_main_v75 (F := Ideal) x0 x1) := by
  funext j
  obtain ⟨u, d, rfl⟩ : ∃ (u : Fin 1) (d : Fin 256), j = ix2 u d := ⟨j 0, j 1, eq_ix2 j⟩
  rw [val_main_v77_apply, val_main_v76_apply, val_main_cst_17_apply, Ideal.ofBits_def, Ideal.ofBits_zero_f32, zero_add,
    Cert.Spec.colSum_apply]
  refine Finset.sum_congr rfl fun n _ => congrArg (val_main_v75 (F := Ideal) x0 x1) ?_
  exact funext fun a => Fin.ext (by match a with | ⟨0, _⟩ => rfl | ⟨1, _⟩ => rfl)

/-- Round 2: the direction is the map H of the column sums (the same operations on both sides). -/
theorem dir2 (x0 : FVec Ideal S200000x256 .f32) (x1 : FVec Ideal S2x256x256 .f32) :
    val_main_v81 (F := Ideal) x0 x1 = H x1 (val_main_v77 (F := Ideal) x0 x1) := by
  unfold val_main_v81 val_main_v80 val_main_v79 val_main_v78 val_main_cst_18 val_main_v51 val_main_v50 H Cert.Spec.hrow
  rfl

/-- Round 2: the product of the re-weighed rows with the transposed direction is the score. -/
theorem score2 (x0 : FVec Ideal S200000x256 .f32) (x1 : FVec Ideal S2x256x256 .f32) (n : Fin 200000) :
    val_main_v83 (F := Ideal) x0 x1 (ix2 n (0 : Fin 1))
      = Cert.Spec.score (val_main_v75 (F := Ideal) x0 x1) (val_main_v81 (F := Ideal) x0 x1) n := by
  rw [val_main_v83_apply]
  unfold Cert.Spec.score
  refine Finset.sum_congr rfl fun k _ => ?_
  rw [val_main_v82_apply]
  refine congrArg₂ (· * ·) (congrArg (val_main_v75 (F := Ideal) x0 x1) ?_) (congrArg (val_main_v81 (F := Ideal) x0 x1) ?_)
  · exact funext fun a => Fin.ext (by match a with | ⟨0, _⟩ => rfl | ⟨1, _⟩ => rfl)
  · exact funext fun a => Fin.ext (by match a with | ⟨0, _⟩ => rfl | ⟨1, _⟩ => rfl)

/-- Round 2: from the score column to the gate column, entry by entry. -/
theorem gate2 (x0 : FVec Ideal S200000x256 .f32) (x1 : FVec Ideal S2x256x256 .f32) (n : Fin 200000) :
    val_main_v95 (F := Ideal) x0 x1 (ix2 n (0 : Fin 1))
      = Cert.Spec.gate (val_main_v83 (F := Ideal) x0 x1 (ix2 n (0 : Fin 1))) := by
  have e : idx_main_v85 (idx_main_v86 (ix2 n (0 : Fin 1))) (0 : Fin 1) = ix2 n (0 : Fin 1) :=
    funext fun a => Fin.ext (by match a with | ⟨0, _⟩ => rfl | ⟨1, _⟩ => rfl)
  rw [val_main_v95_apply, val_main_v94_apply, val_main_cst_22_apply, val_main_v93_apply, val_main_v92_apply,
    val_main_cst_21_apply, val_main_v91_apply, val_main_v90_apply, val_main_v89_apply, val_main_v88_apply,
    val_main_v87_apply, val_main_cst_20_apply, val_main_v86_apply, val_main_v85_apply, val_main_cst_19_apply,
    Fin.sum_univ_one, e, val_main_v84_apply]
  simp only [Ideal.hostDivf_def, Ideal.hostNegf_def, Ideal.negf_def, Ideal.hostAbsf_def, Ideal.absf_def,
    Ideal.hostUnary_exp_def, Ideal.addf_def, Ideal.maximumf_def, Ideal.ofBits_def, Ideal.ofBits_zero_f32, ofBits_one_f32,
    zero_add]
  rfl

/-- Round 2: the product of the transposed gate with the re-weighed rows is their pool. -/
theorem pool2 (x0 : FVec Ideal S200000x256 .f32) (x1 : FVec Ideal S2x256x256 .f32) :
    val_main_v97 (F := Ideal) x0 x1
      = Cert.Spec.pooled (val_main_v75 (F := Ideal) x0 x1) (val_main_v81 (F := Ideal) x0 x1) := by
  funext j
  obtain ⟨u, d, rfl⟩ : ∃ (u : Fin 1) (d : Fin 256), j = ix2 u d := ⟨j 0, j 1, eq_ix2 j⟩
  rw [val_main_v97_apply, Cert.Spec.pooled_apply]
  refine Finset.sum_congr rfl fun n _ => ?_
  have el : idx_main_v96 (lidx_main_v97 (ix2 u d) n) = ix2 n (0 : Fin 1) :=
    funext fun a => Fin.ext (by
      match a with
      | ⟨0, _⟩ => rfl
      | ⟨1, _⟩ => exact Nat.lt_one_iff.mp u.isLt)
  have er : ridx_main_v97 (ix2 u d) n = ix2 n d :=
    funext fun a => Fin.ext (by match a with | ⟨0, _⟩ => rfl | ⟨1, _⟩ => rfl)
  rw [val_main_v96_apply, el, er, gate2, score2]

/-- The reference's head 1 is the specification's. -/
theorem head_eq (x0 : FVec Ideal S200000x256 .f32) (x1 : FVec Ideal S2x256x256 .f32) :
    val_main_v97 (F := Ideal) x0 x1 = Cert.Spec.head (H x1) x0 := by
  rw [pool2, dir2, colsum2, reweigh1, dir1, colsum1]
  rfl

end Cert.ReferenceIdeal.RefHead1

end
-- ==== Proof.lean ====
/-
  The certificate of the two-round attention pooling kernel against its reference.

  The kernel computes, for each of two heads, two rounds over the 200000 rows of the data in three pipelined passes:
  the column sums of the data; then per tile of 2000 rows the re-weighed rows x (n, d) * gate (score n) of the first round
  and their column sums; then per tile the pooled rows ∑ n, gate (score n) * x₁ (n, d) of the second round. The reference
  computes the same two rounds on whole arrays. Over the extended reals both are the specification's `head` applied to
  the data with the head's direction map (the column sums divided by the number of rows, times the head's weight matrix,
  through tanh — the same operations in both programs, carried as one map): a sum over all rows is the sum over the
  tiles of the sums over a tile's rows, a running row reset to zero and increased tile by tile holds the sum of the tiles
  so far, and the logistic function of v is 1 / (1 + exp (-v)). Only the commutativity and associativity of addition are
  used, so the precondition (finite inputs) is never opened.

  The three frames: the kernel's two programs by their generated frame certificates, the reference's by its generated run.
  The idealization rewrote nothing, so `preserves` is trivial. The kernel's run with its result named is the launch
  theorem over the generated segments (KRun), its value the fold through the regions and the host stretches (KValue);
  the reference's value is read stage by stage (RefHead0, RefHead1).
-/
import proofs.«135677_j5583457485032_1_alg».proof.Defs
import proofs.«135677_j5583457485032_1_alg».proof.Proof.Gen.Kernel
import proofs.«135677_j5583457485032_1_alg».proof.Proof.Gen.Kernel.Skeleton
import proofs.«135677_j5583457485032_1_alg».proof.Proof.Gen.Kernel.Launch
import proofs.«135677_j5583457485032_1_alg».proof.Proof.Gen.Kernel.Points
import proofs.«135677_j5583457485032_1_alg».proof.Proof.Gen.Kernel.Frame
import proofs.«135677_j5583457485032_1_alg».proof.Proof.Gen.KernelIdeal
import proofs.«135677_j5583457485032_1_alg».proof.Proof.Gen.KernelIdeal.Skeleton
import proofs.«135677_j5583457485032_1_alg».proof.Proof.Gen.KernelIdeal.Launch
import proofs.«135677_j5583457485032_1_alg».proof.Proof.Gen.KernelIdeal.Points
import proofs.«135677_j5583457485032_1_alg».proof.Proof.Gen.KernelIdeal.Frame
import proofs.«135677_j5583457485032_1_alg».proof.Proof.Gen.ReferenceIdeal
import proofs.«135677_j5583457485032_1_alg».proof.Proof.Gen.Pre_finite_inputs
import proofs.«135677_j5583457485032_1_alg».proof.Proof.Gen.ReferenceIdeal.Run
import proofs.«135677_j5583457485032_1_alg».proof.Proof.Gen.ReferenceIdeal.Read
import proofs.«135677_j5583457485032_1_alg».proof.Proof.KValue
import proofs.«135677_j5583457485032_1_alg».proof.Proof.RefHead0
import proofs.«135677_j5583457485032_1_alg».proof.Proof.RefHead1
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result: its two heads, each the specification's head, joined along the columns. -/
theorem reference_result (x0 : FVec Ideal Cert.ReferenceIdeal.S200000x256 .f32) (x1 : FVec Ideal Cert.ReferenceIdeal.S2x256x256 .f32) :
    Cert.ReferenceIdeal.Read.val_main_v100 (F := Ideal) x0 x1
      = concatenate Cert.ReferenceIdeal.S1x512 1
          [⟨Cert.ReferenceIdeal.S1x256, Cert.Spec.head (Cert.ReferenceIdeal.RefHead0.H x1) x0⟩,
           ⟨Cert.ReferenceIdeal.S1x256, Cert.Spec.head (Cert.ReferenceIdeal.RefHead1.H x1) x0⟩]
          Cert.ReferenceIdeal.Facts₀.concatenates_S1x256_S1x256_S1x512_d1 := by
  unfold Cert.ReferenceIdeal.Read.val_main_v100
  rw [Cert.ReferenceIdeal.RefHead0.head_eq, Cert.ReferenceIdeal.RefHead1.head_eq]

/-- From memories that agree on the data and the weights both programs end with the two heads' results side by side:
    each head is the specification's head of the same data under the same direction map. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2, reference_result]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
